-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x192 : Shape := ⟨2, ![131072, 192]⟩
abbrev S131072x32 : Shape := ⟨2, ![131072, 32]⟩
abbrev S131072x64 : Shape := ⟨2, ![131072, 64]⟩
abbrev S224x64 : Shape := ⟨2, ![224, 64]⟩
abbrev S64 : Shape := ⟨1, ![64]⟩
abbrev S64x256 : Shape := ⟨2, ![64, 256]⟩
abbrev S256 : Shape := ⟨1, ![256]⟩
abbrev S64x1 : Shape := ⟨2, ![64, 1]⟩
abbrev S1 : Shape := ⟨1, ![1]⟩
abbrev S_ : Shape := ⟨0, ![]⟩

class Facts : Prop where
  bcast_S_S131072x192 : S_.BroadcastsInDim S131072x192 (![] : Fin 0 → Fin S131072x192.rank)
  reducesTo_S131072x192_S_d0_1 : S131072x192.ReducesTo [0, 1] S_
  h_S_ : 0 < S_.numel
  bcast_S_S131072x32 : S_.BroadcastsInDim S131072x32 (![] : Fin 0 → Fin S131072x32.rank)
  reducesTo_S131072x32_S_d0_1 : S131072x32.ReducesTo [0, 1] S_
  bcast_S_S131072x64 : S_.BroadcastsInDim S131072x64 (![] : Fin 0 → Fin S131072x64.rank)
  reducesTo_S131072x64_S_d0_1 : S131072x64.ReducesTo [0, 1] S_
  bcast_S_S224x64 : S_.BroadcastsInDim S224x64 (![] : Fin 0 → Fin S224x64.rank)
  reducesTo_S224x64_S_d0_1 : S224x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S64x256 .f32) (main_arg9 : FVec F S256 .f32) (main_arg10 : FVec F S64x1 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S224x64 .f32) (main_arg5 : FVec F S64 .f32) (main_arg6 : FVec F S64x256 .f32) (main_arg7 : FVec F S256 .f32) (main_arg8 : FVec F S64x256 .f32) (main_arg9 : FVec F S256 .f32) (main_arg10 : FVec F S64x1 .f32) (main_arg11 : FVec F S1 .f32) (main_v13 : IVec S_ 1) (main_v16 : IVec S131072x64 1) : IVec S_ 1 :=
  let main_c_5 : IVec S_ 1 := constantI S_ 1 1#1
  let main_v17 : IVec S_ 1 := (fun x v => Host.reduce IntOp.andi x v reducesTo_S131072x64_S_d0_1 h_S_) main_v16 main_c_5
  let main_v18 : IVec S_ 1 := andi main_v13 main_v17
  let main_v19 : FVec F S224x64 .f32 := Host.absf main_arg4
  let main_cst_6 : FVec F S_ .f32 := constant S_ .f32 0x7F800000#32
  let main_v20 : FVec F S224x64 .f32 := broadcastInDim S224x64 ![] bcast_S_S224x64 main_cst_6
  let main_v21 : IVec S224x64 1 := cmpf .olt main_v19 main_v20
  let main_c_7 : IVec S_ 1 := constantI S_ 1 1#1
  let main_v22 : IVec S_ 1 := (fun x v => Host.reduce IntOp.andi x v reducesTo_S224x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x192 .f32) (main_arg1 : FVec F S131072x32 .f32) (main_arg2 : FVec F S131072x64 .f32) (main_arg3 : FVec F S131072x64 .f32) (main_arg4 : FVec F S224x64 .f32) (main_arg5 : FVec F S64 .f32) (main_arg6 : FVec F S64x256 .f32) (main_arg7 : FVec F S256 .f32) (main_arg8 : FVec F S64x256 .f32) (main_arg9 : FVec F S256 .f32) (main_arg10 : FVec F S64x1 .f32) (main_arg11 : FVec F S1 .f32) : IVec S_ 1 :=
  let main_v0 : FVec F S131072x192 .f32 := Host.absf main_arg0
  let main_cst : FVec F S_ .f32 := constant S_ .f32 0x7F800000#32
  let main_v1 : FVec F S131072x192 .f32 := broadcastInDim S131072x192 ![] bcast_S_S131072x192 main_cst
  let main_v2 : IVec S131072x192 1 := cmpf .olt main_v0 main_v1
  let main_c : IVec S_ 1 := constantI S_ 1 1#1
  let main_v3 : IVec S_ 1 := (fun x v => Host.reduce IntOp.andi x v reducesTo_S131072x192_S_d0_1 h_S_) main_v2 main_c
  let main_v4 : FVec F S131072x32 .f32 := Host.absf main_arg1
  let main_cst_0 : FVec F S_ .f32 := constant S_ .f32 0x7F800000#32
  let main_v5 : FVec F S131072x32 .f32 := broadcastInDim S131072x32 ![] bcast_S_S131072x32 main_cst_0
  let main_v6 : IVec S131072x32 1 := cmpf .olt main_v4 main_v5
  let main_c_1 : IVec S_ 1 := constantI S_ 1 1#1
  let main_v7 : IVec S_ 1 := (fun x v => Host.reduce IntOp.andi x v reducesTo_S131072x32_S_d0_1 h_S_) main_v6 main_c_1
  let main_v8 : IVec S_ 1 := andi main_v3 main_v7
  let main_v9 : FVec F S131072x64 .f32 := Host.absf main_arg2
  let main_cst_2 : FVec F S_ .f32 := constant S_ .f32 0x7F800000#32
  let main_v10 : FVec F S131072x64 .f32 := broadcastInDim S131072x64 ![] bcast_S_S131072x64 main_cst_2
  let main_v11 : IVec S131072x64 1 := cmpf .olt main_v9 main_v10
  let main_c_3 : IVec S_ 1 := constantI S_ 1 1#1
  let main_v12 : IVec S_ 1 := (fun x v => Host.reduce IntOp.andi x v reducesTo_S131072x64_S_d0_1 h_S_) main_v11 main_c_3
  let main_v13 : IVec S_ 1 := andi main_v8 main_v12
  let main_v14 : FVec F S131072x64 .f32 := Host.absf main_arg3
  let main_cst_4 : FVec F S_ .f32 := constant S_ .f32 0x7F800000#32
  let main_v15 : FVec F S131072x64 .f32 := broadcastInDim S131072x64 ![] bcast_S_S131072x64 main_cst_4
  let main_v16 : IVec S131072x64 1 := cmpf .olt main_v14 main_v15
  fn_part1 (F := F) main_arg4 main_arg5 main_arg6 main_arg7 main_arg8 main_arg9 main_arg10 main_arg11 main_v13 main_v16
-- ==== Kernel.lean ====
abbrev S131072x192 : Shape := ⟨2, ![131072, 192]⟩
abbrev S131072x32 : Shape := ⟨2, ![131072, 32]⟩
abbrev S131072x64 : Shape := ⟨2, ![131072, 64]⟩
abbrev S224x64 : Shape := ⟨2, ![224, 64]⟩
abbrev S64 : Shape := ⟨1, ![64]⟩
abbrev S64x256 : Shape := ⟨2, ![64, 256]⟩
abbrev S256 : Shape := ⟨1, ![256]⟩
abbrev S64x1 : Shape := ⟨2, ![64, 1]⟩
abbrev S1 : Shape := ⟨1, ![1]⟩
abbrev S1x64 : Shape := ⟨2, ![1, 64]⟩
abbrev S1x256 : Shape := ⟨2, ![1, 256]⟩
abbrev S1x1 : Shape := ⟨2, ![1, 1]⟩
abbrev S131072x1 : Shape := ⟨2, ![131072, 1]⟩
abbrev S2048x192 : Shape := ⟨2, ![2048, 192]⟩
abbrev S2048x32 : Shape := ⟨2, ![2048, 32]⟩
abbrev S2048x64 : Shape := ⟨2, ![2048, 64]⟩
abbrev S2048x1 : Shape := ⟨2, ![2048, 1]⟩
abbrev S192x64 : Shape := ⟨2, ![192, 64]⟩
abbrev S32x64 : Shape := ⟨2, ![32, 64]⟩
abbrev S2048x256 : Shape := ⟨2, ![2048, 256]⟩
abbrev S2x1x4194304 : Shape := ⟨3, ![2, 1, 4194304]⟩
abbrev S1x1x4194304 : Shape := ⟨3, ![1, 1, 4194304]⟩
abbrev S1x4194304 : Shape := ⟨2, ![1, 4194304]⟩

abbrev nBuf : Space → Nat
  | .hbm => 29
  | .vmem => 22
  | .smem => 0
  | _ => 0

abbrev bufTy : (tb : Table) → Fin (tcTables nBuf tb) → BufTy
  | .hbm, ⟨0, _⟩ => ⟨S131072x192, .f32⟩
  | .hbm, ⟨1, _⟩ => ⟨S131072x32, .f32⟩
  | .hbm, ⟨2, _⟩ => ⟨S131072x64, .f32⟩
  | .hbm, ⟨3, _⟩ => ⟨S131072x64, .f32⟩
  | .hbm, ⟨4, _⟩ => ⟨S224x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S64x256, .f32⟩
  | .hbm, ⟨9, _⟩ => ⟨S256, .f32⟩
  | .hbm, ⟨10, _⟩ => ⟨S64x1, .f32⟩
  | .hbm, ⟨11, _⟩ => ⟨S1, .f32⟩
  | .hbm, ⟨12, _⟩ => ⟨S1x64, .f32⟩
  | .hbm, ⟨13, _⟩ => ⟨S1x256, .f32⟩
  | .hbm, ⟨14, _⟩ => ⟨S1x256, .f32⟩
  | .hbm, ⟨15, _⟩ => ⟨S1x1, .f32⟩
  | .hbm, ⟨16, _⟩ => ⟨S131072x1, .f32⟩
  | .hbm, ⟨17, _⟩ => ⟨S131072x64, .f32⟩
  | .hbm, ⟨18, _⟩ => ⟨S131072x64, .f32⟩
  | .hbm, ⟨19, _⟩ => ⟨S2x1x4194304, .f32⟩
  | .hbm, ⟨20, _⟩ => ⟨S2x1x4194304, .f32⟩
  | .hbm, ⟨21, _⟩ => ⟨S1x1x4194304, .f32⟩
  | .hbm, ⟨22, _⟩ => ⟨S1x4194304, .f32⟩
  | .hbm, ⟨23, _⟩ => ⟨S1x1x4194304, .f32⟩
  | .hbm, ⟨24, _⟩ => ⟨S1x4194304, .f32⟩
  | .hbm, ⟨25, _⟩ => ⟨S1x1x4194304, .f32⟩
  | .hbm, ⟨26, _⟩ => ⟨S1x4194304, .f32⟩
  | .hbm, ⟨27, _⟩ => ⟨S1x1x4194304, .f32⟩
  | .hbm, ⟨28, _⟩ => ⟨S1x4194304, .f32⟩
  | .local _ .vmem, ⟨0, _⟩ => ⟨S2048x192, .f32⟩
  | .local _ .vmem, ⟨1, _⟩ => ⟨S2048x192, .f32⟩
  | .local _ .vmem, ⟨2, _⟩ => ⟨S2048x32, .f32⟩
  | .local _ .vmem, ⟨3, _⟩ => ⟨S2048x32, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S224x64, .f32⟩
  | .local _ .vmem, ⟨9, _⟩ => ⟨S1x64, .f32⟩
  | .local _ .vmem, ⟨10, _⟩ => ⟨S64x256, .f32⟩
  | .local _ .vmem, ⟨11, _⟩ => ⟨S1x256, .f32⟩
  | .local _ .vmem, ⟨12, _⟩ => ⟨S64x256, .f32⟩
  | .local _ .vmem, ⟨13, _⟩ => ⟨S1x256, .f32⟩
  | .local _ .vmem, ⟨14, _⟩ => ⟨S64x1, .f32⟩
  | .local _ .vmem, ⟨15, _⟩ => ⟨S1x1, .f32⟩
  | .local _ .vmem, ⟨16, _⟩ => ⟨S2048x1, .f32⟩
  | .local _ .vmem, ⟨17, _⟩ => ⟨S2048x1, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | _, _ => ⟨S131072x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S224x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S64_S1x64 : S64.ShapeCasts S1x64
  shapeCasts_S256_S1x256 : S256.ShapeCasts S1x256
  shapeCasts_S1_S1x1 : S1.ShapeCasts S1x1
  inb_S2048x192_S2048x192_0_0 : ∀ a, (![0, 0] : Fin 2 → Nat) a + S2048x192.size a ≤ S2048x192.size a
  h_S2048x192 : 0 < S2048x192.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  inb_S224x64_S192x64_0_0 : ∀ a, (![0, 0] : Fin 2 → Nat) a + S192x64.size a ≤ S224x64.size a
  h_S192x64 : 0 < S192x64.numel
  inb_S224x64_S32x64_192_0 : ∀ a, (![192, 0] : Fin 2 → Nat) a + S32x64.size a ≤ S224x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x256_o0_0_S2048x64 : S2048x256.Slices ![0, 0] S2048x64
  slices_S2048x256_o0_64_S2048x64 : S2048x256.Slices ![0, 64] S2048x64
  slices_S2048x256_o0_128_S2048x64 : S2048x256.Slices ![0, 128] S2048x64
  slices_S2048x256_o0_192_S2048x64 : S2048x256.Slices ![0, 192] S2048x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S131072x64_S2x1x4194304 : S131072x64.ShapeCasts S2x1x4194304
  slices_S2x1x4194304_S1x1x4194304_0_0_0 : S2x1x4194304.Slices ![0, 0, 0] S1x1x4194304
  shapeCasts_S1x1x4194304_S1x4194304 : S1x1x4194304.ShapeCasts S1x4194304
  slices_S2x1x4194304_S1x1x4194304_1_0_0 : S2x1x4194304.Slices ![1, 0, 0] S1x1x4194304
  dot_S2048x192_S192x64_S2048x64_1_0_0_1_n_n_wf : DotDims.WF S2048x192 S192x64 S2048x64 [1] [0] [0] [1] [] []
  dot_S2048x32_S32x64_S2048x64_1_0_0_1_n_n_wf : DotDims.WF S2048x32 S32x64 S2048x64 [1] [0] [0] [1] [] []
  dot_S2048x64_S64x256_S2048x256_1_0_0_1_n_n_wf : DotDims.WF S2048x64 S64x256 S2048x256 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x192.size a ≤ S131072x192.size a
  hwx0_0 : ∀ i : grid0.Coords, EltTy.bits .f32 = 32 ∨ (Rect.block (s := S131072x192) S2048x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S131072x32.size a
  hwx0_1 : ∀ i : grid0.Coords, EltTy.bits .f32 = 32 ∨ (Rect.block (s := S131072x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S131072x64.size a
  hwx0_2 : ∀ i : grid0.Coords, EltTy.bits .f32 = 32 ∨ (Rect.block (s := S131072x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S131072x64.size a
  hwx0_3 : ∀ i : grid0.Coords, EltTy.bits .f32 = 32 ∨ (Rect.block (s := S131072x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S224x64.size a ≤ S224x64.size a
  hwx0_4 : ∀ i : grid0.Coords, EltTy.bits .f32 = 32 ∨ (Rect.block (s := S224x64) S224x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .f32 = 32 ∨ (Rect.block (s := S64x256) S64x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x256.size a ≤ S64x256.size a
  hwx0_8 : ∀ i : grid0.Coords, EltTy.bits .f32 = 32 ∨ (Rect.block (s := S64x256) S64x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S64x1.size a
  hwx0_10 : ∀ i : grid0.Coords, EltTy.bits .f32 = 32 ∨ (Rect.block (s := S64x1) S64x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S131072x1.size a
  hwx0_12 : ∀ i : grid0.Coords, EltTy.bits .f32 = 32 ∨ (Rect.block (s := S131072x1) S2048x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x64.size a ≤ S131072x64.size a
  hwx0_13 : ∀ i : grid0.Coords, EltTy.bits .f32 = 32 ∨ (Rect.block (s := S131072x64) S2048x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x64.size a ≤ S131072x64.size a
  hwx0_14 : ∀ i : grid0.Coords, EltTy.bits .f32 = 32 ∨ (Rect.block (s := S131072x64) S2048x64.size (cc0_transform_14 i) (hinb0_14 i)).WholeWords (EltTy.packing .f32)

variable [Facts₀]

def dot_S2048x192_S192x64_S2048x64_1_0_0_1_n_n : DotDims S2048x192 S192x64 S2048x64 where
  lhsContracting := [1]
  rhsContracting := [0]
  lhsNonContracting := [0]
  rhsNonContracting := [1]
  lhsBatch := []
  rhsBatch := []
  wf := dot_S2048x192_S192x64_S2048x64_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S224x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4_0) S2048x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_1) S2048x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4_2) S2048x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S131072x192 : Shape := ⟨2, ![131072, 192]⟩
abbrev S131072x32 : Shape := ⟨2, ![131072, 32]⟩
abbrev S131072x64 : Shape := ⟨2, ![131072, 64]⟩
abbrev S224x64 : Shape := ⟨2, ![224, 64]⟩
abbrev S64 : Shape := ⟨1, ![64]⟩
abbrev S64x256 : Shape := ⟨2, ![64, 256]⟩
abbrev S256 : Shape := ⟨1, ![256]⟩
abbrev S64x1 : Shape := ⟨2, ![64, 1]⟩
abbrev S1 : Shape := ⟨1, ![1]⟩
abbrev S131072x224 : Shape := ⟨2, ![131072, 224]⟩
abbrev S1x64 : Shape := ⟨2, ![1, 64]⟩
abbrev S_ : Shape := ⟨0, ![]⟩
abbrev S131072x256 : Shape := ⟨2, ![131072, 256]⟩
abbrev S1x256 : Shape := ⟨2, ![1, 256]⟩
abbrev S131072x1 : Shape := ⟨2, ![131072, 1]⟩
abbrev S1x1 : Shape := ⟨2, ![1, 1]⟩
abbrev S2x1x4194304 : Shape := ⟨3, ![2, 1, 4194304]⟩
abbrev S1x1x4194304 : Shape := ⟨3, ![1, 1, 4194304]⟩
abbrev S1x4194304 : Shape := ⟨2, ![1, 4194304]⟩

abbrev nBuf : Space → Nat
  | .hbm => 78
  | .vmem => 0
  | .smem => 0
  | _ => 0

abbrev bufTy : (tb : Table) → Fin (tcTables nBuf tb) → BufTy
  | .hbm, ⟨0, _⟩ => ⟨S131072x192, .f32⟩
  | .hbm, ⟨1, _⟩ => ⟨S131072x32, .f32⟩
  | .hbm, ⟨2, _⟩ => ⟨S131072x64, .f32⟩
  | .hbm, ⟨3, _⟩ => ⟨S131072x64, .f32⟩
  | .hbm, ⟨4, _⟩ => ⟨S224x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S64x256, .f32⟩
  | .hbm, ⟨9, _⟩ => ⟨S256, .f32⟩
  | .hbm, ⟨10, _⟩ => ⟨S64x1, .f32⟩
  | .hbm, ⟨11, _⟩ => ⟨S1, .f32⟩
  | .hbm, ⟨12, _⟩ => ⟨S131072x224, .f32⟩
  | .hbm, ⟨13, _⟩ => ⟨S131072x64, .f32⟩
  | .hbm, ⟨14, _⟩ => ⟨S1x64, .f32⟩
  | .hbm, ⟨15, _⟩ => ⟨S131072x64, .f32⟩
  | .hbm, ⟨16, _⟩ => ⟨S131072x64, .f32⟩
  | .hbm, ⟨17, _⟩ => ⟨S_, .f32⟩
  | .hbm, ⟨18, _⟩ => ⟨S131072x64, .f32⟩
  | .hbm, ⟨19, _⟩ => ⟨S131072x64, .f32⟩
  | .hbm, ⟨20, _⟩ => ⟨S131072x256, .f32⟩
  | .hbm, ⟨21, _⟩ => ⟨S131072x256, .f32⟩
  | .hbm, ⟨22, _⟩ => ⟨S131072x256, .f32⟩
  | .hbm, ⟨23, _⟩ => ⟨S1x256, .f32⟩
  | .hbm, ⟨24, _⟩ => ⟨S131072x256, .f32⟩
  | .hbm, ⟨25, _⟩ => ⟨S131072x256, .f32⟩
  | .hbm, ⟨26, _⟩ => ⟨S1x256, .f32⟩
  | .hbm, ⟨27, _⟩ => ⟨S131072x256, .f32⟩
  | .hbm, ⟨28, _⟩ => ⟨S131072x256, .f32⟩
  | .hbm, ⟨29, _⟩ => ⟨S131072x64, .f32⟩
  | .hbm, ⟨30, _⟩ => ⟨S131072x64, .f32⟩
  | .hbm, ⟨31, _⟩ => ⟨S131072x64, .f32⟩
  | .hbm, ⟨32, _⟩ => ⟨S131072x64, .f32⟩
  | .hbm, ⟨33, _⟩ => ⟨S131072x64, .f32⟩
  | .hbm, ⟨34, _⟩ => ⟨S131072x64, .f32⟩
  | .hbm, ⟨35, _⟩ => ⟨S_, .f32⟩
  | .hbm, ⟨36, _⟩ => ⟨S131072x64, .f32⟩
  | .hbm, ⟨37, _⟩ => ⟨S131072x64, .f32⟩
  | .hbm, ⟨38, _⟩ => ⟨S_, .f32⟩
  | .hbm, ⟨39, _⟩ => ⟨S131072x64, .f32⟩
  | .hbm, ⟨40, _⟩ => ⟨S131072x64, .f32⟩
  | .hbm, ⟨41, _⟩ => ⟨S131072x64, .f32⟩
  | .hbm, ⟨42, _⟩ => ⟨S131072x64, .f32⟩
  | .hbm, ⟨43, _⟩ => ⟨S_, .f32⟩
  | .hbm, ⟨44, _⟩ => ⟨S131072x64, .f32⟩
  | .hbm, ⟨45, _⟩ => ⟨S131072x64, .f32⟩
  | .hbm, ⟨46, _⟩ => ⟨S_, .f32⟩
  | .hbm, ⟨47, _⟩ => ⟨S131072x64, .f32⟩
  | .hbm, ⟨48, _⟩ => ⟨S131072x64, .f32⟩
  | .hbm, ⟨49, _⟩ => ⟨S131072x64, .f32⟩
  | .hbm, ⟨50, _⟩ => ⟨S131072x64, .f32⟩
  | .hbm, ⟨51, _⟩ => ⟨S131072x64, .f32⟩
  | .hbm, ⟨52, _⟩ => ⟨S_, .f32⟩
  | .hbm, ⟨53, _⟩ => ⟨S131072x64, .f32⟩
  | .hbm, ⟨54, _⟩ => ⟨S131072x64, .f32⟩
  | .hbm, ⟨55, _⟩ => ⟨S_, .f32⟩
  | .hbm, ⟨56, _⟩ => ⟨S131072x64, .f32⟩
  | .hbm, ⟨57, _⟩ => ⟨S131072x64, .f32⟩
  | .hbm, ⟨58, _⟩ => ⟨S131072x64, .f32⟩
  | .hbm, ⟨59, _⟩ => ⟨S131072x64, .f32⟩
  | .hbm, ⟨60, _⟩ => ⟨S131072x64, .f32⟩
  | .hbm, ⟨61, _⟩ => ⟨S131072x64, .f32⟩
  | .hbm, ⟨62, _⟩ => ⟨S131072x64, .f32⟩
  | .hbm, ⟨63, _⟩ => ⟨S131072x1, .f32⟩
  | .hbm, ⟨64, _⟩ => ⟨S1x1, .f32⟩
  | .hbm, ⟨65, _⟩ => ⟨S131072x1, .f32⟩
  | .hbm, ⟨66, _⟩ => ⟨S131072x1, .f32⟩
  | .hbm, ⟨67, _⟩ => ⟨S131072x1, .f32⟩
  | .hbm, ⟨68, _⟩ => ⟨S2x1x4194304, .f32⟩
  | .hbm, ⟨69, _⟩ => ⟨S2x1x4194304, .f32⟩
  | .hbm, ⟨70, _⟩ => ⟨S1x1x4194304, .f32⟩
  | .hbm, ⟨71, _⟩ => ⟨S1x4194304, .f32⟩
  | .hbm, ⟨72, _⟩ => ⟨S1x1x4194304, .f32⟩
  | .hbm, ⟨73, _⟩ => ⟨S1x4194304, .f32⟩
  | .hbm, ⟨74, _⟩ => ⟨S1x1x4194304, .f32⟩
  | .hbm, ⟨75, _⟩ => ⟨S1x4194304, .f32⟩
  | .hbm, ⟨76, _⟩ => ⟨S1x1x4194304, .f32⟩
  | .hbm, ⟨77, _⟩ => ⟨S1x4194304, .f32⟩
  | _, _ => ⟨S131072x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  concatenates_S131072x192_S131072x32_S131072x224_d1 : Shape.Concatenates [S131072x192, S131072x32] S131072x224 1
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S131072x256_S131072x64_0_0 : S131072x256.Slices ![0, 0] S131072x64
  slices_S131072x256_S131072x64_0_64 : S131072x256.Slices ![0, 64] S131072x64
  slices_S131072x256_S131072x64_0_128 : S131072x256.Slices ![0, 128] S131072x64
  slices_S131072x256_S131072x64_0_192 : S131072x256.Slices ![0, 192] S131072x64
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x64_S2x1x4194304 : S131072x64.ShapeCasts S2x1x4194304
  slices_S2x1x4194304_S1x1x4194304_0_0_0 : S2x1x4194304.Slices ![0, 0, 0] S1x1x4194304
  shapeCasts_S1x1x4194304_S1x4194304 : S1x1x4194304.ShapeCasts S1x4194304
  slices_S2x1x4194304_S1x1x4194304_1_0_0 : S2x1x4194304.Slices ![1, 0, 0] S1x1x4194304
  dot_S131072x224_S224x64_S131072x64_1_0_0_1_n_n_wf : DotDims.WF S131072x224 S224x64 S131072x64 [1] [0] [0] [1] [] []
  dot_S131072x64_S64x256_S131072x256_1_0_0_1_n_n_wf : DotDims.WF S131072x64 S64x256 S131072x256 [1] [0] [0] [1] [] []
  dot_S131072x64_S64x1_S131072x1_1_0_0_1_n_n_wf : DotDims.WF S131072x64 S64x1 S131072x1 [1] [0] [0] [1] [] []

variable [Facts₀]

def dot_S131072x224_S224x64_S131072x64_1_0_0_1_n_n : DotDims S131072x224 S224x64 S131072x64 where
  lhsContracting := [1]
  rhsContracting := [0]
  lhsNonContracting := [0]
  rhsNonContracting := [1]
  lhsBatch := []
  rhsBatch := []
  wf := dot_S131072x224_S224x64_S131072x64_1_0_0_1_n_n_wf
def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.Spec.lean ====
/-
  One step of an LSTM cell with an input projection and a scalar read-out, for one row of a batch.

  A row carries an observation s ∈ ℝ¹⁹², an action a ∈ ℝ³², the previous hidden state h ∈ ℝ⁶⁴ and the previous cell state
  c ∈ ℝ⁶⁴ (all entries extended reals). With weights W_in (224 × 64), b_in, W_i and W_h (64 × 256), b_i, b_h, W_out (64 × 1)
  and b_out the step is

      x_j   = max( Σ_{k<192} s_k · W_in[k, j] + Σ_{k<32} a_k · W_in[192 + k, j] + b_in[j] , 0 )
      g_q   = Σ_k x_k · W_i[k, q] + Σ_k h_k · W_h[k, q] + b_i[q] + b_h[q]                       (q < 256)
      c'_j  = σ(g_{64+j}) · c_j + σ(g_j) · tanh(g_{128+j})
      h'_j  = σ(g_{192+j}) · tanh(c'_j)
      out   = tanh( Σ_k h'_k · W_out[k] + b_out )

  where σ(t) = 1 / (1 + e^{-t}). The projection of the concatenated row (s, a) by W_in is written as the sum of the
  projection of s by the first 192 rows of W_in and of a by the last 32 rows: the sum over 224 terms splits after its
  first 192 terms, which is associativity and commutativity of addition on the extended reals and needs no finiteness
  (`sum_split`).
-/
import Idealize.ShloMosaic.PureOps.Ideal
import Idealize.ShloMosaic.Lib.ValueIdx
import Idealize.ShloMosaic.Lib.Pipeline.Value
import Mathlib.Algebra.BigOperators.Fin

noncomputable section

open scoped BigOperators

namespace Cert.LstmStep

open Idealize.ShloMosaic Idealize.ShloMosaic.ValueIdx

/-! ## Positions -/

/-- Row `k` of the first 192 rows of W_in. -/
def lowRow (k : Fin 192) : Fin 224 := ⟨k.val, by omega⟩
/-- Row `192 + k` of W_in: the rows that meet the action. -/
def highRow (k : Fin 32) : Fin 224 := ⟨192 + k.val, by omega⟩

/-- The four gates' columns among the 256 pre-activations: input, forget, candidate, output. -/
def inCol (j : Fin 64) : Fin 256 := ⟨j.val, by omega⟩
def forgetCol (j : Fin 64) : Fin 256 := ⟨64 + j.val, by omega⟩
def candCol (j : Fin 64) : Fin 256 := ⟨128 + j.val, by omega⟩
def outCol (j : Fin 64) : Fin 256 := ⟨192 + j.val, by omega⟩

/-- A sum over 224 positions is the sum over the first 192 plus the sum over the last 32. -/
theorem sum_split (f : Fin 224 → EReal) :
    ∑ k : Fin 224, f k = ∑ k : Fin 192, f (lowRow k) + ∑ k : Fin 32, f (highRow k) :=
  Fin.sum_univ_add (a := 192) (b := 32) f

/-! ## The step for one row -/

/-- The weights the gates use. -/
structure Weights where
  /-- The first 192 rows of W_in: they meet the observation. -/
  Ws : Fin 192 → Fin 64 → EReal
  /-- The last 32 rows of W_in: they meet the action. -/
  Wa : Fin 32 → Fin 64 → EReal
  bin : Fin 64 → EReal
  Wi : Fin 64 → Fin 256 → EReal
  bi : Fin 256 → EReal
  Wh : Fin 64 → Fin 256 → EReal
  bh : Fin 256 → EReal

/-- One row of the batch. -/
structure Row where
  s : Fin 192 → EReal
  a : Fin 32 → EReal
  h : Fin 64 → EReal
  c : Fin 64 → EReal

/-- The word of the float zero that the rectifier compares with (the same word in both programs). -/
abbrev zeroWord : EReal := Ideal.ofBits .f32 0x00000000#32

/-- The rectified input projection x_j. -/
def feature (W : Weights) (R : Row) (j : Fin 64) : EReal :=
  max ((∑ k : Fin 192, R.s k * W.Ws k j + ∑ k : Fin 32, R.a k * W.Wa k j) + W.bin j) zeroWord

/-- The gate pre-activation g_q. -/
def gate (W : Weights) (R : Row) (q : Fin 256) : EReal :=
  ((∑ k : Fin 64, feature W R k * W.Wi k q + ∑ k : Fin 64, R.h k * W.Wh k q) + W.bi q) + W.bh q

/-- The new cell state c'_j. -/
def cellNext (W : Weights) (R : Row) (j : Fin 64) : EReal :=
  Ideal.logistic (gate W R (forgetCol j)) * R.c j + Ideal.logistic (gate W R (inCol j)) * Ideal.tanh (gate W R (candCol j))

/-- The new hidden state h'_j. -/
def hiddenNext (W : Weights) (R : Row) (j : Fin 64) : EReal :=
  Ideal.logistic (gate W R (outCol j)) * Ideal.tanh (cellNext W R j)

/-- The scalar read-out. -/
def readout (W : Weights) (R : Row) (Wo : Fin 64 → EReal) (bo : EReal) : EReal :=
  Ideal.tanh (∑ k : Fin 64, hiddenNext W R k * Wo k + bo)

/-! ## The logistic function as the quotient the host spells -/

/-- The word 0x3F800000 is the float one. -/
theorem oneWord : Ideal.ofBits .f32 0x3F800000#32 = 1 := by
  simp [Ideal.ofBits, Ideal.ieee, -EReal.coe_mul]; norm_num

/-- 1 / (1 + e^{-t}), spelt with the float one's word, is the logistic function. -/
theorem logistic_quotient (t : EReal) :
    Ideal.div (Ideal.ofBits .f32 0x3F800000#32) (Ideal.ofBits .f32 0x3F800000#32 + Ideal.exp (-t)) = Ideal.logistic t := by
  rw [oneWord]; rfl

/-! ## The batch: arrays of 131072 rows -/

section Batch

variable (x0 : FVec Ideal ⟨2, ![131072, 192]⟩ .f32) (x1 : FVec Ideal ⟨2, ![131072, 32]⟩ .f32)
  (x2 x3 : FVec Ideal ⟨2, ![131072, 64]⟩ .f32) (x4 : FVec Ideal ⟨2, ![224, 64]⟩ .f32) (x5 : FVec Ideal ⟨1, ![64]⟩ .f32)
  (x6 : FVec Ideal ⟨2, ![64, 256]⟩ .f32) (x7 : FVec Ideal ⟨1, ![256]⟩ .f32) (x8 : FVec Ideal ⟨2, ![64, 256]⟩ .f32)
  (x9 : FVec Ideal ⟨1, ![256]⟩ .f32) (x10 : FVec Ideal ⟨2, ![64, 1]⟩ .f32) (x11 : FVec Ideal ⟨1, ![1]⟩ .f32)

/-- The weights as the argument arrays hold them. -/
def weightsOf : Weights where
  Ws a b := x4 (ix2 (lowRow a) b)
  Wa a b := x4 (ix2 (highRow a) b)
  bin b := x5 (ix1 b)
  Wi a b := x6 (ix2 a b)
  bi b := x7 (ix1 b)
  Wh a b := x8 (ix2 a b)
  bh b := x9 (ix1 b)

/-- Row `r` of the batch as the argument arrays hold it. -/
def rowOf (r : Fin 131072) : Row where
  s k := x0 (ix2 r k)
  a k := x1 (ix2 r k)
  h k := x2 (ix2 r k)
  c k := x3 (ix2 r k)

/-- The new cell states of the whole batch. -/
def cellArr : FVec Ideal ⟨2, ![131072, 64]⟩ .f32 := fun i =>
  cellNext (weightsOf x4 x5 x6 x7 x8 x9) (rowOf x0 x1 x2 x3 (i 0)) (i 1)

/-- The new hidden states of the whole batch. -/
def hiddenArr : FVec Ideal ⟨2, ![131072, 64]⟩ .f32 := fun i =>
  hiddenNext (weightsOf x4 x5 x6 x7 x8 x9) (rowOf x0 x1 x2 x3 (i 0)) (i 1)

/-- The read-outs of the whole batch, a column. -/
def readoutArr : FVec Ideal ⟨2, ![131072, 1]⟩ .f32 := fun i =>
  readout (weightsOf x4 x5 x6 x7 x8 x9) (rowOf x0 x1 x2 x3 (i 0)) (fun k => x10 (ix2 k 0)) (x11 (ix1 0))

theorem cellArr_apply (r : Fin 131072) (j : Fin 64) :
    cellArr x0 x1 x2 x3 x4 x5 x6 x7 x8 x9 (ix2 r j) = cellNext (weightsOf x4 x5 x6 x7 x8 x9) (rowOf x0 x1 x2 x3 r) j := rfl

theorem hiddenArr_apply (r : Fin 131072) (j : Fin 64) :
    hiddenArr x0 x1 x2 x3 x4 x5 x6 x7 x8 x9 (ix2 r j) = hiddenNext (weightsOf x4 x5 x6 x7 x8 x9) (rowOf x0 x1 x2 x3 r) j := rfl

theorem readoutArr_apply (r : Fin 131072) (z : Fin 1) :
    readoutArr x0 x1 x2 x3 x4 x5 x6 x7 x8 x9 x10 x11 (ix2 r z)
      = readout (weightsOf x4 x5 x6 x7 x8 x9) (rowOf x0 x1 x2 x3 r) (fun k => x10 (ix2 k 0)) (x11 (ix1 0)) := rfl

end Batch

/-! ## The halves of a 131072 × 64 array laid out flat

Both programs return the new hidden and cell states as two halves: the array is read flat as 2 × 1 × 4194304, one of
its two slabs is taken and the unit axis dropped. The side conditions of the three layout steps are propositions, so
the two programs' own evidence gives the same function. -/

/-- Slab `k` (0 or 1) of a 131072 × 64 array read flat, as a 1 × 4194304 array. -/
def half (k : Nat) (h₁ : (⟨2, ![131072, 64]⟩ : Shape).ShapeCasts ⟨3, ![2, 1, 4194304]⟩)
    (h₂ : (⟨3, ![2, 1, 4194304]⟩ : Shape).Slices ![k, 0, 0] ⟨3, ![1, 1, 4194304]⟩)
    (h₃ : (⟨3, ![1, 1, 4194304]⟩ : Shape).ShapeCasts ⟨2, ![1, 4194304]⟩)
    (x : FVec Ideal ⟨2, ![131072, 64]⟩ .f32) : FVec Ideal ⟨2, ![1, 4194304]⟩ .f32 :=
  shapeCast ⟨2, ![1, 4194304]⟩ (extractStridedSlice ⟨3, ![1, 1, 4194304]⟩ ![k, 0, 0] (shapeCast ⟨3, ![2, 1, 4194304]⟩ x h₁) h₂) h₃

end Cert.LstmStep

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.RefValue.lean ====
/-
  The reference's stages are the LSTM step of the specification, row by row.

  The reference joins the observation and the action of a row into one vector of length 224 and multiplies it by W_in;
  the specification multiplies the observation by the first 192 rows and the action by the last 32 and adds the two.
  Position k < 192 of the joined row is the observation's entry k and position 192 + k is the action's entry k, so the
  sum over the 224 positions, split after position 191, is the specification's two sums. Everything after that is the
  same operation on both sides, read at one entry: a product with a matrix is a sum over the contracted position, a
  bias is read at its column, the four gates are the four quarter-slices of the 256 pre-activations, and the
  reference's spelling 1 / (1 + e^{-t}) of the logistic function is the logistic function.
-/
import proofs.«173676_j39737037422777_1_alg».proof.Proof.Gen.ReferenceIdeal.Run
import proofs.«173676_j39737037422777_1_alg».proof.Proof.Gen.ReferenceIdeal.Read
import proofs.«173676_j39737037422777_1_alg».proof.Proof.Spec
import proofs.«173676_j39737037422777_1_alg».proof.Proof.LibDotPlain

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LstmStep

/-! ## The operations of the reference read at one entry -/

/-- The product with W_in at entry (r, j): the sum over the 224 positions of the joined row. -/
theorem dot_in (A : FVec Ideal S131072x224 .f32) (B : FVec Ideal S224x64 .f32)
    (r : Fin 131072) (j : Fin 64) :
    Host.dotGeneral (F := Ideal) dot_S131072x224_S224x64_S131072x64_1_0_0_1_n_n none A B (ix2 r j) = ∑ k : Fin 224, A (ix2 r k) * B (ix2 k j) :=
  Cert.LibDotPlain.dotGeneral_plain 131072 224 64 none .single A B r j

/-- A product with a 64 × 256 matrix at entry (r, q). -/
theorem dot_gate (A : FVec Ideal S131072x64 .f32) (B : FVec Ideal S64x256 .f32)
    (r : Fin 131072) (q : Fin 256) :
    Host.dotGeneral (F := Ideal) dot_S131072x64_S64x256_S131072x256_1_0_0_1_n_n none A B (ix2 r q) = ∑ k : Fin 64, A (ix2 r k) * B (ix2 k q) :=
  Cert.LibDotPlain.dotGeneral_plain 131072 64 256 none .single A B r q

/-- The product with the 64 × 1 read-out column at entry (r, z). -/
theorem dot_out (A : FVec Ideal S131072x64 .f32) (B : FVec Ideal S64x1 .f32)
    (r : Fin 131072) (z : Fin 1) :
    Host.dotGeneral (F := Ideal) dot_S131072x64_S64x1_S131072x1_1_0_0_1_n_n none A B (ix2 r z) = ∑ k : Fin 64, A (ix2 r k) * B (ix2 k z) :=
  Cert.LibDotPlain.dotGeneral_plain 131072 64 1 none .single A B r z

/-- A quarter of the 256 pre-activations: the slice starting at column `off`, at entry (r, j), is the array at column
    `off + j`. -/
theorem quarter_at (off : Nat) (h : S131072x256.Slices ![0, off] S131072x64)
    (y : (⟨S131072x256, .f32⟩ : BufTy).Contents (Elt Ideal)) (r : Fin 131072) (j : Fin 64) (q : Fin 256)
    (hq : q.val = off + j.val) :
    extractStridedSlice S131072x64 ![0, off] y h (ix2 r j) = y (ix2 r q) :=
  extractStridedSlice_apply ![0, off] y h (ix2 r j) (ix2 r q) (fun a => match a with
    | ⟨0, _⟩ => by show r.val = 0 + r.val; omega
    | ⟨1, _⟩ => by show q.val = off + j.val; exact hq)

section Stages

variable (x0 : (⟨S131072x192, .f32⟩ : BufTy).Contents (Elt Ideal)) (x1 : (⟨S131072x32, .f32⟩ : BufTy).Contents (Elt Ideal))
  (x2 x3 : (⟨S131072x64, .f32⟩ : BufTy).Contents (Elt Ideal)) (x4 : (⟨S224x64, .f32⟩ : BufTy).Contents (Elt Ideal))
  (x5 : (⟨S64, .f32⟩ : BufTy).Contents (Elt Ideal)) (x6 : (⟨S64x256, .f32⟩ : BufTy).Contents (Elt Ideal))
  (x7 : (⟨S256, .f32⟩ : BufTy).Contents (Elt Ideal)) (x8 : (⟨S64x256, .f32⟩ : BufTy).Contents (Elt Ideal))
  (x9 : (⟨S256, .f32⟩ : BufTy).Contents (Elt Ideal)) (x10 : (⟨S64x1, .f32⟩ : BufTy).Contents (Elt Ideal))
  (x11 : (⟨S1, .f32⟩ : BufTy).Contents (Elt Ideal))

/-! ## The joined row -/

/-- Position k < 192 of the joined row is the observation's entry k. -/
theorem joined_low (r : Fin 131072) (k : Fin 192) : val_main_v0 (F := Ideal) x0 x1 (ix2 r (lowRow k)) = x0 (ix2 r k) := by
  unfold val_main_v0
  exact concatenate_pair_apply_left (1 : Fin 2) x0 x1 _ (ix2 r (lowRow k)) rfl (ix2 r k) (fun b => by
    match b with
    | ⟨0, _⟩ => rfl
    | ⟨1, _⟩ => rfl)

/-- Position 192 + k of the joined row is the action's entry k. -/
theorem joined_high (r : Fin 131072) (k : Fin 32) : val_main_v0 (F := Ideal) x0 x1 (ix2 r (highRow k)) = x1 (ix2 r k) := by
  unfold val_main_v0
  exact concatenate_pair_apply_right (1 : Fin 2) x0 x1 _ (ix2 r (highRow k)) rfl rfl (ix2 r k)
    (fun b hb => by
      match b, hb with
      | ⟨0, _⟩, _ => rfl
      | ⟨1, _⟩, hb => exact absurd rfl hb)
    (by show k.val + 192 = 192 + k.val; omega)

/-- The projection of the joined row is the sum of the observation's and the action's projections. -/
theorem projection_at (r : Fin 131072) (j : Fin 64) :
    val_main_v1 (F := Ideal) x0 x1 x4 (ix2 r j)
      = ∑ k : Fin 192, x0 (ix2 r k) * x4 (ix2 (lowRow k) j) + ∑ k : Fin 32, x1 (ix2 r k) * x4 (ix2 (highRow k) j) := by
  unfold val_main_v1
  rw [dot_in, sum_split]
  simp only [joined_low, joined_high]

/-! ## The biases and the constants -/

theorem bias_in_at (r : Fin 131072) (j : Fin 64) : val_main_v3 (F := Ideal) x5 (ix2 r j) = x5 (ix1 j) := by
  rw [val_main_v3_apply, val_main_v2_apply]
  exact congrArg x5 (funext fun a => match a with | ⟨0, _⟩ => rfl)

theorem bias_i_at (r : Fin 131072) (q : Fin 256) : val_main_v10 (F := Ideal) x7 (ix2 r q) = x7 (ix1 q) := by
  rw [val_main_v10_apply, val_main_v9_apply]
  exact congrArg x7 (funext fun a => match a with | ⟨0, _⟩ => rfl)

theorem bias_h_at (r : Fin 131072) (q : Fin 256) : val_main_v13 (F := Ideal) x9 (ix2 r q) = x9 (ix1 q) := by
  rw [val_main_v13_apply, val_main_v12_apply]
  exact congrArg x9 (funext fun a => match a with | ⟨0, _⟩ => rfl)

theorem bias_out_at (r : Fin 131072) (z : Fin 1) : val_main_v45 (F := Ideal) x11 (ix2 r z) = x11 (ix1 0) := by
  rw [val_main_v45_apply, val_main_v44_apply]
  exact congrArg x11 (funext fun a => match a with
    | ⟨0, _⟩ => rfl)

theorem zero_at (i : S131072x64.Idx) : val_main_call0_v0 (F := Ideal) i = zeroWord := by
  rw [val_main_call0_v0_apply]; rfl

theorem one21_at (i : S131072x64.Idx) : val_main_v21 (F := Ideal) i = Ideal.ofBits .f32 0x3F800000#32 := by
  rw [val_main_v21_apply]; rfl
theorem one23_at (i : S131072x64.Idx) : val_main_v23 (F := Ideal) i = Ideal.ofBits .f32 0x3F800000#32 := by
  rw [val_main_v23_apply]; rfl
theorem one27_at (i : S131072x64.Idx) : val_main_v27 (F := Ideal) i = Ideal.ofBits .f32 0x3F800000#32 := by
  rw [val_main_v27_apply]; rfl
theorem one29_at (i : S131072x64.Idx) : val_main_v29 (F := Ideal) i = Ideal.ofBits .f32 0x3F800000#32 := by
  rw [val_main_v29_apply]; rfl
theorem one34_at (i : S131072x64.Idx) : val_main_v34 (F := Ideal) i = Ideal.ofBits .f32 0x3F800000#32 := by
  rw [val_main_v34_apply]; rfl
theorem one36_at (i : S131072x64.Idx) : val_main_v36 (F := Ideal) i = Ideal.ofBits .f32 0x3F800000#32 := by
  rw [val_main_v36_apply]; rfl

/-! ## The stages -/

/-- The rectified projection is the specification's x_j. -/
theorem feature_at (r : Fin 131072) (j : Fin 64) :
    val_main_v5 (F := Ideal) x0 x1 x4 x5 (ix2 r j) = feature (weightsOf x4 x5 x6 x7 x8 x9) (rowOf x0 x1 x2 x3 r) j := by
  rw [val_main_v5_apply, val_main_v4_apply, projection_at, bias_in_at, zero_at]
  rfl

/-- The 256 pre-activations are the specification's g_q. -/
theorem gate_at (r : Fin 131072) (q : Fin 256) :
    val_main_v14 (F := Ideal) x0 x1 x2 x4 x5 x6 x7 x8 x9 (ix2 r q) = gate (weightsOf x4 x5 x6 x7 x8 x9) (rowOf x0 x1 x2 x3 r) q := by
  rw [val_main_v14_apply, val_main_v11_apply, val_main_v8_apply, bias_i_at, bias_h_at]
  unfold val_main_v6 val_main_v7
  rw [dot_gate, dot_gate]
  simp only [feature_at x0 x1 x2 x3 x4 x5 x6 x7 x8 x9]
  rfl

theorem in_quarter (r : Fin 131072) (j : Fin 64) :
    val_main_v15 (F := Ideal) x0 x1 x2 x4 x5 x6 x7 x8 x9 (ix2 r j) = val_main_v14 (F := Ideal) x0 x1 x2 x4 x5 x6 x7 x8 x9 (ix2 r (inCol j)) :=
  quarter_at 0 _ _ r j (inCol j) (by show j.val = 0 + j.val; omega)
theorem forget_quarter (r : Fin 131072) (j : Fin 64) :
    val_main_v16 (F := Ideal) x0 x1 x2 x4 x5 x6 x7 x8 x9 (ix2 r j) = val_main_v14 (F := Ideal) x0 x1 x2 x4 x5 x6 x7 x8 x9 (ix2 r (forgetCol j)) :=
  quarter_at 64 _ _ r j (forgetCol j) rfl
theorem cand_quarter (r : Fin 131072) (j : Fin 64) :
    val_main_v17 (F := Ideal) x0 x1 x2 x4 x5 x6 x7 x8 x9 (ix2 r j) = val_main_v14 (F := Ideal) x0 x1 x2 x4 x5 x6 x7 x8 x9 (ix2 r (candCol j)) :=
  quarter_at 128 _ _ r j (candCol j) rfl
theorem out_quarter (r : Fin 131072) (j : Fin 64) :
    val_main_v18 (F := Ideal) x0 x1 x2 x4 x5 x6 x7 x8 x9 (ix2 r j) = val_main_v14 (F := Ideal) x0 x1 x2 x4 x5 x6 x7 x8 x9 (ix2 r (outCol j)) :=
  quarter_at 192 _ _ r j (outCol j) rfl

/-- The new cell state. -/
theorem cell_at (r : Fin 131072) (j : Fin 64) :
    val_main_v40 (F := Ideal) x0 x1 x2 x3 x4 x5 x6 x7 x8 x9 (ix2 r j) = cellNext (weightsOf x4 x5 x6 x7 x8 x9) (rowOf x0 x1 x2 x3 r) j := by
  rw [val_main_v40_apply, val_main_v38_apply, val_main_v39_apply, val_main_v30_apply, val_main_v24_apply, val_main_v31_apply,
    val_main_v28_apply, val_main_v22_apply, val_main_v26_apply, val_main_v20_apply, val_main_v25_apply, val_main_v19_apply,
    one29_at, one27_at, one23_at, one21_at, forget_quarter, in_quarter, cand_quarter, gate_at x0 x1 x2 x3, gate_at x0 x1 x2 x3,
    gate_at x0 x1 x2 x3]
  simp only [Ideal.addf_def, Ideal.mulf_def, Ideal.hostDivf_def, Ideal.hostUnary_exp_def, Ideal.hostNegf_def, Ideal.negf_def,
    Ideal.hostUnary_tanh_def, logistic_quotient]
  rfl

/-- The new hidden state. -/
theorem hidden_at (r : Fin 131072) (j : Fin 64) :
    val_main_v42 (F := Ideal) x0 x1 x2 x3 x4 x5 x6 x7 x8 x9 (ix2 r j) = hiddenNext (weightsOf x4 x5 x6 x7 x8 x9) (rowOf x0 x1 x2 x3 r) j := by
  rw [val_main_v42_apply, val_main_v37_apply, val_main_v41_apply, val_main_v35_apply, val_main_v33_apply, val_main_v32_apply,
    one36_at, one34_at, out_quarter, gate_at x0 x1 x2 x3, cell_at]
  simp only [Ideal.addf_def, Ideal.mulf_def, Ideal.hostDivf_def, Ideal.hostUnary_exp_def, Ideal.hostNegf_def, Ideal.negf_def,
    Ideal.hostUnary_tanh_def, logistic_quotient]
  rfl

/-- The read-out. -/
theorem readout_at (r : Fin 131072) (z : Fin 1) :
    val_main_v47 (F := Ideal) x0 x1 x2 x3 x4 x5 x6 x7 x8 x9 x10 x11 (ix2 r z)
      = readout (weightsOf x4 x5 x6 x7 x8 x9) (rowOf x0 x1 x2 x3 r) (fun k => x10 (ix2 k 0)) (x11 (ix1 0)) := by
  obtain rfl : z = 0 := Subsingleton.elim _ _
  rw [val_main_v47_apply, val_main_v46_apply, bias_out_at]
  unfold val_main_v43
  rw [dot_out]
  simp only [hidden_at x0 x1 x2 x3 x4 x5 x6 x7 x8 x9, Ideal.addf_def, Ideal.hostUnary_tanh_def]
  rfl

/-! ## The arrays -/

theorem cell_eq : val_main_v40 (F := Ideal) x0 x1 x2 x3 x4 x5 x6 x7 x8 x9 = cellArr x0 x1 x2 x3 x4 x5 x6 x7 x8 x9 := by
  funext i
  obtain ⟨r, j, rfl⟩ : ∃ (r : Fin 131072) (j : Fin 64), i = ix2 r j := ⟨i 0, i 1, eq_ix2 i⟩
  exact cell_at x0 x1 x2 x3 x4 x5 x6 x7 x8 x9 r j

theorem hidden_eq : val_main_v42 (F := Ideal) x0 x1 x2 x3 x4 x5 x6 x7 x8 x9 = hiddenArr x0 x1 x2 x3 x4 x5 x6 x7 x8 x9 := by
  funext i
  obtain ⟨r, j, rfl⟩ : ∃ (r : Fin 131072) (j : Fin 64), i = ix2 r j := ⟨i 0, i 1, eq_ix2 i⟩
  exact hidden_at x0 x1 x2 x3 x4 x5 x6 x7 x8 x9 r j

theorem readout_eq : val_main_v47 (F := Ideal) x0 x1 x2 x3 x4 x5 x6 x7 x8 x9 x10 x11 = readoutArr x0 x1 x2 x3 x4 x5 x6 x7 x8 x9 x10 x11 := by
  funext i
  obtain ⟨r, z, rfl⟩ : ∃ (r : Fin 131072) (z : Fin 1), i = ix2 r z := ⟨i 0, i 1, eq_ix2 i⟩
  exact readout_at x0 x1 x2 x3 x4 x5 x6 x7 x8 x9 x10 x11 r z

/-! ## The four halves the reference returns -/

theorem hidden_half0 : val_main_v51 (F := Ideal) x0 x1 x2 x3 x4 x5 x6 x7 x8 x9
    = half 0 shapeCasts_S131072x64_S2x1x4194304 slices_S2x1x4194304_S1x1x4194304_0_0_0 shapeCasts_S1x1x4194304_S1x4194304
        (hiddenArr x0 x1 x2 x3 x4 x5 x6 x7 x8 x9) := by
  rw [← hidden_eq]; rfl
theorem hidden_half1 : val_main_v53 (F := Ideal) x0 x1 x2 x3 x4 x5 x6 x7 x8 x9
    = half 1 shapeCasts_S131072x64_S2x1x4194304 slices_S2x1x4194304_S1x1x4194304_1_0_0 shapeCasts_S1x1x4194304_S1x4194304
        (hiddenArr x0 x1 x2 x3 x4 x5 x6 x7 x8 x9) := by
  rw [← hidden_eq]; rfl
theorem cell_half0 : val_main_v55 (F := Ideal) x0 x1 x2 x3 x4 x5 x6 x7 x8 x9
    = half 0 shapeCasts_S131072x64_S2x1x4194304 slices_S2x1x4194304_S1x1x4194304_0_0_0 shapeCasts_S1x1x4194304_S1x4194304
        (cellArr x0 x1 x2 x3 x4 x5 x6 x7 x8 x9) := by
  rw [← cell_eq]; rfl
theorem cell_half1 : val_main_v57 (F := Ideal) x0 x1 x2 x3 x4 x5 x6 x7 x8 x9
    = half 1 shapeCasts_S131072x64_S2x1x4194304 slices_S2x1x4194304_S1x1x4194304_1_0_0 shapeCasts_S1x1x4194304_S1x4194304
        (cellArr x0 x1 x2 x3 x4 x5 x6 x7 x8 x9) := by
  rw [← cell_eq]; rfl

end Stages

end Cert.ReferenceIdeal.RefValue

end
-- ==== Proof.KernelPayload.lean ====
/-
  What the kernel's body computes on one block of 2048 rows is the LSTM step of the specification on each row of the
  block.

  The body reads the block's observations (2048 × 192), actions (2048 × 32), previous hidden and cell states
  (2048 × 64 each) and the whole weights. It multiplies the observations by rows 0 … 191 of W_in and the actions by rows
  192 … 223 and adds the two products and the bias; rectifies; multiplies by W_i, adds the hidden states' product with W_h
  and the two gate biases; cuts the 256 columns into the four gates; and forms the new cell state, the new hidden state
  and the read-out. Entry (p, ·) of each matrix product is a sum over the contracted position of entries of row p of the
  left factor, a bias row is read at its column whatever the row, and every other operation acts entry by entry, so row p
  of each result is the specification's step on row p of the block. Changes of float format are the identity on the
  extended reals.
-/
import proofs.«173676_j39737037422777_1_alg».proof.Proof.Gen.KernelIdeal.Frame
import proofs.«173676_j39737037422777_1_alg».proof.Proof.Spec
import proofs.«173676_j39737037422777_1_alg».proof.Proof.LibDotPlain
import Idealize.ShloMosaic.Lib.Pipeline.Value
import Idealize.ShloMosaic.Lib.ValueIdx

noncomputable section

open scoped BigOperators

namespace Cert.KernelIdeal.KValue

open Cert.KernelIdeal Cert.KernelIdeal.Gen Idealize.ShloMosaic Idealize.ShloMosaic.ValueIdx
open Cert.LstmStep

/-! ## The body's operations read at one entry -/

/-- The observations' product with the first 192 rows of W_in, into zeros, at entry (p, j). -/
theorem mm_state (A : FVec Ideal S2048x192 .bf16) (B : FVec Ideal S192x64 .bf16) (p : Fin 2048) (j : Fin 64) :
    matmul (F := Ideal) dot_S2048x192_S192x64_S2048x64_1_0_0_1_n_n none A B (constant S2048x64 .f32 0x00000000#32) (ix2 p j)
      = ∑ k : Fin 192, A (ix2 p k) * B (ix2 k j) :=
  Cert.LibDotPlain.matmul_zero_plain 2048 192 64 none A B p j

/-- The actions' product with the last 32 rows of W_in, into zeros, at entry (p, j). -/
theorem mm_action (A : FVec Ideal S2048x32 .bf16) (B : FVec Ideal S32x64 .bf16) (p : Fin 2048) (j : Fin 64) :
    matmul (F := Ideal) dot_S2048x32_S32x64_S2048x64_1_0_0_1_n_n none A B (constant S2048x64 .f32 0x00000000#32) (ix2 p j)
      = ∑ k : Fin 32, A (ix2 p k) * B (ix2 k j) :=
  Cert.LibDotPlain.matmul_zero_plain 2048 32 64 none A B p j

/-- A product with a 64 × 256 matrix, into zeros, at entry (p, q). -/
theorem mm_gate (A : FVec Ideal S2048x64 .bf16) (B : FVec Ideal S64x256 .bf16) (p : Fin 2048) (q : Fin 256) :
    matmul (F := Ideal) dot_S2048x64_S64x256_S2048x256_1_0_0_1_n_n none A B (constant S2048x256 .f32 0x00000000#32) (ix2 p q)
      = ∑ k : Fin 64, A (ix2 p k) * B (ix2 k q) :=
  Cert.LibDotPlain.matmul_zero_plain 2048 64 256 none A B p q

/-- The product with the 64 × 1 read-out column, into zeros, at entry (p, z). -/
theorem mm_out (A : FVec Ideal S2048x64 .bf16) (B : FVec Ideal S64x1 .bf16) (p : Fin 2048) (z : Fin 1) :
    matmul (F := Ideal) dot_S2048x64_S64x1_S2048x1_1_0_0_1_n_n none A B (constant S2048x1 .f32 0x00000000#32) (ix2 p z)
      = ∑ k : Fin 64, A (ix2 p k) * B (ix2 k z) :=
  Cert.LibDotPlain.matmul_zero_plain 2048 64 1 none A B p z

/-- A bias row of 64 entries repeated down 2048 rows, at entry (p, k): the bias at column k. -/
theorem rows64_at (v : FVec Ideal S1x64 .f32) (h : S1x64.Broadcasts S2048x64) (p : Fin 2048) (k : Fin 64) :
    broadcastTo S2048x64 v h (ix2 p k) = v (ix2 0 k) :=
  broadcastTo_apply v h (ix2 p k) (ix2 0 k) (fun a => match a with
    | ⟨0, _⟩ => rfl
    | ⟨1, _⟩ => rfl)

/-- A bias row of 256 entries repeated down 2048 rows, at entry (p, q): the bias at column q. -/
theorem rows256_at (v : FVec Ideal S1x256 .f32) (h : S1x256.Broadcasts S2048x256) (p : Fin 2048) (q : Fin 256) :
    broadcastTo S2048x256 v h (ix2 p q) = v (ix2 0 q) :=
  broadcastTo_apply v h (ix2 p q) (ix2 0 q) (fun a => match a with
    | ⟨0, _⟩ => rfl
    | ⟨1, _⟩ => rfl)

/-- The one-entry read-out bias repeated down 2048 rows. -/
theorem rows1_at (v : FVec Ideal S1x1 .f32) (h : S1x1.Broadcasts S2048x1) (p : Fin 2048) (z : Fin 1) :
    broadcastTo S2048x1 v h (ix2 p z) = v (ix2 0 0) :=
  broadcastTo_apply v h (ix2 p z) (ix2 0 0) (fun a => match a with
    | ⟨0, _⟩ => rfl
    | ⟨1, _⟩ => rfl)

/-- A quarter of the block's 256 pre-activations: the slice starting at column `off`, at entry (p, j), is the array
    at column `off + j`. -/
theorem quarter_at (off : Nat) (h : S2048x256.Slices ![0, off] S2048x64) (y : FVec Ideal S2048x256 .f32)
    (p : Fin 2048) (j : Fin 64) (q : Fin 256) (hq : q.val = off + j.val) :
    extractStridedSlice S2048x64 ![0, off] y h (ix2 p j) = y (ix2 p q) :=
  extractStridedSlice_apply ![0, off] y h (ix2 p j) (ix2 p q) (fun a => match a with
    | ⟨0, _⟩ => by show p.val = 0 + p.val; omega
    | ⟨1, _⟩ => by show q.val = off + j.val; exact hq)

/-! ## The payloads -/

section Payloads

variable (v0 : Vec Ideal S2048x192 .f32) (v2 : Vec Ideal S2048x32 .f32) (v4 : Vec Ideal S192x64 .f32)
  (v6 : Vec Ideal S32x64 .f32) (v8 : Vec Ideal S1x64 .f32) (v18 : Vec Ideal S2048x64 .f32)
  (v20 v22 : Vec Ideal S64x256 .f32) (v24 v26 : Vec Ideal S1x256 .f32) (v43 : Vec Ideal S2048x64 .f32)
  (v49 : Vec Ideal S64x1 .f32) (v51 : Vec Ideal S1x1 .f32)

/-- The weights as the body loaded them: W_in in its two parts, the biases as rows. -/
def loadedWeights : Weights where
  Ws a b := v4 (ix2 a b)
  Wa a b := v6 (ix2 a b)
  bin b := v8 (ix2 0 b)
  Wi a b := v20 (ix2 a b)
  bi b := v24 (ix2 0 b)
  Wh a b := v22 (ix2 a b)
  bh b := v26 (ix2 0 b)

/-- Row p of the loaded block. -/
def loadedRow (p : Fin 2048) : Row where
  s k := v0 (ix2 p k)
  a k := v2 (ix2 p k)
  h k := v18 (ix2 p k)
  c k := v43 (ix2 p k)

/-- The 256 pre-activations of row p. -/
theorem gates_pay (p : Fin 2048) (q : Fin 256) :
    k0_pay1 (k0_pay5 v0 v2 v4 v6 v8 v18 v20 v22 v24) (k0_pay6 v26) (ix2 p q)
      = gate (loadedWeights v4 v6 v8 v20 v22 v24 v26) (loadedRow v0 v2 v18 v43 p) q := by
  unfold k0_pay1 k0_pay5 k0_pay6
  dsimp only
  rw [addf_apply, addf_apply, addf_apply, mm_gate, mm_gate, rows256_at, rows256_at, shapeCast_self, shapeCast_self]
  simp only [truncf_apply, maximumf_apply, addf_apply, mm_state, mm_action, rows64_at, shapeCast_self, broadcast_apply]
  rfl

/-- The logistic function and the hyperbolic tangent act entry by entry. -/
theorem logistic_at {s : Shape} (x : FVec Ideal s .f32) (i : s.Idx) : Idealize.ShloMosaic.logistic x i = Ideal.logistic (x i) := rfl
theorem tanh_at {s : Shape} (x : FVec Ideal s .f32) (i : s.Idx) : Idealize.ShloMosaic.tanh x i = Ideal.tanh (x i) := rfl

/-- The new cell state of row p. -/
theorem cell_pay (p : Fin 2048) (j : Fin 64) :
    k0_pay2 (k0_pay5 v0 v2 v4 v6 v8 v18 v20 v22 v24) (k0_pay6 v26) v43 (ix2 p j)
      = cellNext (loadedWeights v4 v6 v8 v20 v22 v24 v26) (loadedRow v0 v2 v18 v43 p) j := by
  unfold k0_pay2
  rw [addf_apply, mulf_apply, mulf_apply, logistic_at, logistic_at, tanh_at,
    quarter_at 64 _ _ p j (forgetCol j) rfl, quarter_at 0 _ _ p j (inCol j) (by show j.val = 0 + j.val; omega),
    quarter_at 128 _ _ p j (candCol j) rfl, gates_pay (v43 := v43), gates_pay (v43 := v43), gates_pay (v43 := v43)]
  rfl

/-- The new hidden state of row p. -/
theorem hidden_pay (p : Fin 2048) (j : Fin 64) :
    k0_pay3 (k0_pay5 v0 v2 v4 v6 v8 v18 v20 v22 v24) (k0_pay6 v26) v43 (ix2 p j)
      = hiddenNext (loadedWeights v4 v6 v8 v20 v22 v24 v26) (loadedRow v0 v2 v18 v43 p) j := by
  unfold k0_pay3
  rw [mulf_apply, logistic_at, tanh_at, quarter_at 192 _ _ p j (outCol j) rfl, gates_pay (v43 := v43), cell_pay]
  rfl

/-- The read-out of row p. -/
theorem readout_pay (p : Fin 2048) (z : Fin 1) :
    k0_pay4 (k0_pay5 v0 v2 v4 v6 v8 v18 v20 v22 v24) (k0_pay6 v26) v43 v49 v51 (ix2 p z)
      = readout (loadedWeights v4 v6 v8 v20 v22 v24 v26) (loadedRow v0 v2 v18 v43 p) (fun k => v49 (ix2 k 0)) (v51 (ix2 0 0)) := by
  obtain rfl : z = 0 := Subsingleton.elim _ _
  unfold k0_pay4
  rw [tanh_at, addf_apply, mm_out, rows1_at, shapeCast_self]
  simp only [truncf_apply, hidden_pay]
  rfl

end Payloads

/-! ## The three output buffers after the body -/

/-- The offsets (0, 0), as the function that is zero on both axes. -/
theorem hz : (![0, 0] : Fin 2 → Nat) = fun _ => 0 := funext fun a => by fin_cases a <;> rfl

section Outputs

variable (x0 : Vec Ideal S2048x192 .f32) (x1 : Vec Ideal S2048x32 .f32) (x2 x3 : Vec Ideal S2048x64 .f32)
  (x4 : Vec Ideal S224x64 .f32) (x5 : Vec Ideal S1x64 .f32) (x6 : Vec Ideal S64x256 .f32) (x7 : Vec Ideal S1x256 .f32)
  (x8 : Vec Ideal S64x256 .f32) (x9 : Vec Ideal S1x256 .f32) (x10 : Vec Ideal S64x1 .f32) (x11 : Vec Ideal S1x1 .f32)

/-- Rows 0 … 191 of the staged W_in, as the body's first load of it reads them. -/
theorem ld_low (a : Fin 192) (b : Fin 64) : View.ld x4 r0_2 (ix2 a b) = x4 (ix2 (lowRow a) b) := by
  show x4 (r0_2.emb (ix2 a b)) = _
  refine congrArg x4 (funext fun d => Fin.ext ?_)
  match d with
  | ⟨0, _⟩ => show 0 + 1 * a.val = a.val; omega
  | ⟨1, _⟩ => show 0 + 1 * b.val = b.val; omega

/-- Rows 192 … 223 of the staged W_in, as the body's second load of it reads them. -/
theorem ld_high (a : Fin 32) (b : Fin 64) : View.ld x4 r0_3 (ix2 a b) = x4 (ix2 (highRow a) b) := by
  show x4 (r0_3.emb (ix2 a b)) = _
  refine congrArg x4 (funext fun d => Fin.ext ?_)
  match d with
  | ⟨0, _⟩ => show 192 + 1 * a.val = 192 + a.val; omega
  | ⟨1, _⟩ => show 0 + 1 * b.val = b.val; omega

/-- The weights as the staged blocks hold them. -/
def blockWeights : Weights where
  Ws a b := x4 (ix2 (lowRow a) b)
  Wa a b := x4 (ix2 (highRow a) b)
  bin b := x5 (ix2 0 b)
  Wi a b := x6 (ix2 a b)
  bi b := x7 (ix2 0 b)
  Wh a b := x8 (ix2 a b)
  bh b := x9 (ix2 0 b)

theorem loaded_eq_block :
    loadedWeights (View.ld x4 r0_2) (View.ld x4 r0_3) x5 x6 x8 x7 x9 = blockWeights x4 x5 x6 x7 x8 x9 := by
  have e₁ : (fun (a : Fin 192) (b : Fin 64) => View.ld x4 r0_2 (ix2 a b)) = fun a b => x4 (ix2 (lowRow a) b) :=
    funext fun a => funext fun b => ld_low x4 a b
  have e₂ : (fun (a : Fin 32) (b : Fin 64) => View.ld x4 r0_3 (ix2 a b)) = fun a b => x4 (ix2 (highRow a) b) :=
    funext fun a => funext fun b => ld_high x4 a b
  unfold loadedWeights blockWeights
  rw [e₁, e₂]

/-- After the body, the cell-state output buffer holds the new cell states of the block's rows. -/
theorem cell_out (p : Fin 2048) (j : Fin 64) :
    out0_14 x0 x1 x2 x3 x4 x5 x6 x7 x8 x9 x10 x11 (ix2 p j)
      = cellNext (blockWeights x4 x5 x6 x7 x8 x9) (loadedRow x0 x1 x2 x3 p) j := by
  unfold out0_14
  rw [View.canon_unit_zero hz]
  simp only [View.ld_unit_zero (S := S2048x192) hz, View.ld_unit_zero (S := S2048x32) hz, View.ld_unit_zero (S := S2048x64) hz,
    View.ld_unit_zero (S := S1x64) hz, View.ld_unit_zero (S := S64x256) hz, View.ld_unit_zero (S := S1x256) hz]
  rw [cell_pay, loaded_eq_block]

/-- After the body, the hidden-state output buffer holds the new hidden states of the block's rows. -/
theorem hidden_out (p : Fin 2048) (j : Fin 64) :
    out0_13 x0 x1 x2 x3 x4 x5 x6 x7 x8 x9 x10 x11 (ix2 p j)
      = hiddenNext (blockWeights x4 x5 x6 x7 x8 x9) (loadedRow x0 x1 x2 x3 p) j := by
  unfold out0_13
  rw [View.canon_unit_zero hz]
  simp only [View.ld_unit_zero (S := S2048x192) hz, View.ld_unit_zero (S := S2048x32) hz, View.ld_unit_zero (S := S2048x64) hz,
    View.ld_unit_zero (S := S1x64) hz, View.ld_unit_zero (S := S64x256) hz, View.ld_unit_zero (S := S1x256) hz]
  rw [hidden_pay, loaded_eq_block]

/-- After the body, the read-out output buffer holds the read-outs of the block's rows. -/
theorem readout_out (p : Fin 2048) (z : Fin 1) :
    out0_12 x0 x1 x2 x3 x4 x5 x6 x7 x8 x9 x10 x11 (ix2 p z)
      = readout (blockWeights x4 x5 x6 x7 x8 x9) (loadedRow x0 x1 x2 x3 p) (fun k => x10 (ix2 k 0)) (x11 (ix2 0 0)) := by
  unfold out0_12
  rw [View.canon_unit_zero hz]
  simp only [View.ld_unit_zero (S := S2048x192) hz, View.ld_unit_zero (S := S2048x32) hz, View.ld_unit_zero (S := S2048x64) hz,
    View.ld_unit_zero (S := S1x64) hz, View.ld_unit_zero (S := S64x256) hz, View.ld_unit_zero (S := S1x256) hz,
    View.ld_unit_zero (S := S64x1) hz, View.ld_unit_zero (S := S1x1) hz]
  rw [readout_pay, loaded_eq_block]

end Outputs

end Cert.KernelIdeal.KValue

end
-- ==== Proof.KernelArrays.lean ====
/-
  The kernel's three output arrays after the run are the specification's arrays of the whole batch.

  The grid has 64 points; at point t the batch windows (observations, actions, hidden and cell states, and the three
  outputs) hold rows 2048·t … 2048·t + 2047 of their arrays, all columns, and the weight windows hold their whole
  arrays. So entry (p, ·) of a batch block at point t is entry (2048·t + p, ·) of the array, the body's result on the
  block is the specification's step on those rows, and the 64 blocks of an output tile its array: row r lies in the
  block of point r / 2048. The gate biases and the read-out bias reach the kernel as one-row arrays, reshaped from the
  argument vectors before the region: entry (0, b) of the reshaped array is entry b of the vector.
-/
import proofs.«173676_j39737037422777_1_alg».proof.Proof.KernelPayload

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.LstmStep

variable (m : (ℓ : Loc nD τ sig) → Buf (Elt Ideal) ℓ) (ρ : Dev nD → PrngReg)

/-! ## Where the windows' blocks lie -/

/-- The printed index maps over the 64 grid points: a batch window's block index is (t, 0), a weight window's (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

theorem idx_weights : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- A grid point is one of 64. -/
theorem point_lt (t : Fin cfg0.N) : t.val < 64 := lt_of_lt_of_eq t.isLt N_0

/-- Row p of the block at point t is row 2048·t + p of the batch. -/
def rowAt (t : Fin cfg0.N) (p : Fin 2048) : Fin 131072 := ⟨t.val * 2048 + p.val, by have := point_lt t; omega⟩

/-! ## The input blocks read at an entry -/

theorem state_blk (c : Dev nD) (t : Fin cfg0.N) (p : Fin 2048) (k : Fin 192) :
    iblk m c 0 t (ix2 p k) = V m c main_arg0 (ix2 (rowAt t p) k) := by
  show V m c main_arg0 (((cfg0.win 0).blk t).view.emb (ix2 p k)) = _
  refine congrArg (V m c main_arg0) (funext fun a => Fin.ext ?_)
  obtain ⟨e0, e1, -⟩ := idx_facts t
  match a with
  | ⟨0, _⟩ => show win0_0.index t (0 : Fin 2) * 2048 + 1 * p.val = t.val * 2048 + p.val; omega
  | ⟨1, _⟩ => show win0_0.index t (1 : Fin 2) * 192 + 1 * k.val = k.val; omega

theorem action_blk (c : Dev nD) (t : Fin cfg0.N) (p : Fin 2048) (k : Fin 32) :
    iblk m c 1 t (ix2 p k) = V m c main_arg1 (ix2 (rowAt t p) k) := by
  show V m c main_arg1 (((cfg0.win 1).blk t).view.emb (ix2 p k)) = _
  refine congrArg (V m c main_arg1) (funext fun a => Fin.ext ?_)
  obtain ⟨-, -, e0, e1, -⟩ := idx_facts t
  match a with
  | ⟨0, _⟩ => show win0_1.index t (0 : Fin 2) * 2048 + 1 * p.val = t.val * 2048 + p.val; omega
  | ⟨1, _⟩ => show win0_1.index t (1 : Fin 2) * 32 + 1 * k.val = k.val; omega

theorem hidden_blk (c : Dev nD) (t : Fin cfg0.N) (p : Fin 2048) (k : Fin 64) :
    iblk m c 2 t (ix2 p k) = V m c main_arg2 (ix2 (rowAt t p) k) := by
  show V m c main_arg2 (((cfg0.win 2).blk t).view.emb (ix2 p k)) = _
  refine congrArg (V m c main_arg2) (funext fun a => Fin.ext ?_)
  obtain ⟨-, -, -, -, e0, e1, -⟩ := idx_facts t
  match a with
  | ⟨0, _⟩ => show win0_2.index t (0 : Fin 2) * 2048 + 1 * p.val = t.val * 2048 + p.val; omega
  | ⟨1, _⟩ => show win0_2.index t (1 : Fin 2) * 64 + 1 * k.val = k.val; omega

theorem cell_blk (c : Dev nD) (t : Fin cfg0.N) (p : Fin 2048) (k : Fin 64) :
    iblk m c 3 t (ix2 p k) = V m c main_arg3 (ix2 (rowAt t p) k) := by
  show V m c main_arg3 (((cfg0.win 3).blk t).view.emb (ix2 p k)) = _
  refine congrArg (V m c main_arg3) (funext fun a => Fin.ext ?_)
  obtain ⟨-, -, -, -, -, -, e0, e1, -⟩ := idx_facts t
  match a with
  | ⟨0, _⟩ => show win0_3.index t (0 : Fin 2) * 2048 + 1 * p.val = t.val * 2048 + p.val; omega
  | ⟨1, _⟩ => show win0_3.index t (1 : Fin 2) * 64 + 1 * k.val = k.val; omega

theorem win_blk (c : Dev nD) (t : Fin cfg0.N) (a : Fin 224) (b : Fin 64) :
    iblk m c 4 t (ix2 a b) = V m c main_arg4 (ix2 a b) := by
  show V m c main_arg4 (((cfg0.win 4).blk t).view.emb (ix2 a b)) = _
  refine congrArg (V m c main_arg4) (funext fun d => Fin.ext ?_)
  obtain ⟨e0, e1, -⟩ := idx_weights t
  match d with
  | ⟨0, _⟩ => show win0_4.index t (0 : Fin 2) * 224 + 1 * a.val = a.val; omega
  | ⟨1, _⟩ => show win0_4.index t (1 : Fin 2) * 64 + 1 * b.val = b.val; omega

theorem bin_blk (c : Dev nD) (t : Fin cfg0.N) (a : Fin 1) (b : Fin 64) :
    iblk m c 5 t (ix2 a b) = V m c main_v0 (ix2 a b) := by
  show V m c main_v0 (((cfg0.win 5).blk t).view.emb (ix2 a b)) = _
  refine congrArg (V m c main_v0) (funext fun d => Fin.ext ?_)
  obtain ⟨-, -, e0, e1, -⟩ := idx_weights t
  match d with
  | ⟨0, _⟩ => show win0_5.index t (0 : Fin 2) * 1 + 1 * a.val = a.val; omega
  | ⟨1, _⟩ => show win0_5.index t (1 : Fin 2) * 64 + 1 * b.val = b.val; omega

theorem wi_blk (c : Dev nD) (t : Fin cfg0.N) (a : Fin 64) (b : Fin 256) :
    iblk m c 6 t (ix2 a b) = V m c main_arg6 (ix2 a b) := by
  show V m c main_arg6 (((cfg0.win 6).blk t).view.emb (ix2 a b)) = _
  refine congrArg (V m c main_arg6) (funext fun d => Fin.ext ?_)
  obtain ⟨-, -, -, -, e0, e1, -⟩ := idx_weights t
  match d with
  | ⟨0, _⟩ => show win0_6.index t (0 : Fin 2) * 64 + 1 * a.val = a.val; omega
  | ⟨1, _⟩ => show win0_6.index t (1 : Fin 2) * 256 + 1 * b.val = b.val; omega

theorem bi_blk (c : Dev nD) (t : Fin cfg0.N) (a : Fin 1) (b : Fin 256) :
    iblk m c 7 t (ix2 a b) = V m c main_v1 (ix2 a b) := by
  show V m c main_v1 (((cfg0.win 7).blk t).view.emb (ix2 a b)) = _
  refine congrArg (V m c main_v1) (funext fun d => Fin.ext ?_)
  obtain ⟨-, -, -, -, -, -, e0, e1, -⟩ := idx_weights t
  match d with
  | ⟨0, _⟩ => show win0_7.index t (0 : Fin 2) * 1 + 1 * a.val = a.val; omega
  | ⟨1, _⟩ => show win0_7.index t (1 : Fin 2) * 256 + 1 * b.val = b.val; omega

theorem wh_blk (c : Dev nD) (t : Fin cfg0.N) (a : Fin 64) (b : Fin 256) :
    iblk m c 8 t (ix2 a b) = V m c main_arg8 (ix2 a b) := by
  show V m c main_arg8 (((cfg0.win 8).blk t).view.emb (ix2 a b)) = _
  refine congrArg (V m c main_arg8) (funext fun d => Fin.ext ?_)
  obtain ⟨-, -, -, -, -, -, -, -, e0, e1, -⟩ := idx_weights t
  match d with
  | ⟨0, _⟩ => show win0_8.index t (0 : Fin 2) * 64 + 1 * a.val = a.val; omega
  | ⟨1, _⟩ => show win0_8.index t (1 : Fin 2) * 256 + 1 * b.val = b.val; omega

theorem bh_blk (c : Dev nD) (t : Fin cfg0.N) (a : Fin 1) (b : Fin 256) :
    iblk m c 9 t (ix2 a b) = V m c main_v2 (ix2 a b) := by
  show V m c main_v2 (((cfg0.win 9).blk t).view.emb (ix2 a b)) = _
  refine congrArg (V m c main_v2) (funext fun d => Fin.ext ?_)
  obtain ⟨-, -, -, -, -, -, -, -, -, -, e0, e1, -⟩ := idx_weights t
  match d with
  | ⟨0, _⟩ => show win0_9.index t (0 : Fin 2) * 1 + 1 * a.val = a.val; omega
  | ⟨1, _⟩ => show win0_9.index t (1 : Fin 2) * 256 + 1 * b.val = b.val; omega

theorem wout_blk (c : Dev nD) (t : Fin cfg0.N) (a : Fin 64) (b : Fin 1) :
    iblk m c 10 t (ix2 a b) = V m c main_arg10 (ix2 a b) := by
  show V m c main_arg10 (((cfg0.win 10).blk t).view.emb (ix2 a b)) = _
  refine congrArg (V m c main_arg10) (funext fun d => Fin.ext ?_)
  obtain ⟨-, -, -, -, -, -, -, -, -, -, -, -, e0, e1, -⟩ := idx_weights t
  match d with
  | ⟨0, _⟩ => show win0_10.index t (0 : Fin 2) * 64 + 1 * a.val = a.val; omega
  | ⟨1, _⟩ => show win0_10.index t (1 : Fin 2) * 1 + 1 * b.val = b.val; omega

theorem bout_blk (c : Dev nD) (t : Fin cfg0.N) (a : Fin 1) (b : Fin 1) :
    iblk m c 11 t (ix2 a b) = V m c main_v3 (ix2 a b) := by
  show V m c main_v3 (((cfg0.win 11).blk t).view.emb (ix2 a b)) = _
  refine congrArg (V m c main_v3) (funext fun d => Fin.ext ?_)
  obtain ⟨-, -, -, -, -, -, -, -, -, -, -, -, -, -, e0, e1⟩ := idx_weights t
  match d with
  | ⟨0, _⟩ => show win0_11.index t (0 : Fin 2) * 1 + 1 * a.val = a.val; omega
  | ⟨1, _⟩ => show win0_11.index t (1 : Fin 2) * 1 + 1 * b.val = b.val; omega

/-! ## The biases, reshaped to one-row arrays before the region -/

theorem bin_arr (c : Dev nD) :
    V m c main_v0 = shapeCast S1x64 (m ((c : Thread nD τ).loc main_arg5)) shapeCasts_S64_S1x64 := by
  show StableHlo.after hostOps0 (fun b => m (c, b)) (Proc.devRef .tc main_v0) = _
  after_results
  rfl

theorem bi_arr (c : Dev nD) :
    V m c main_v1 = shapeCast S1x256 (m ((c : Thread nD τ).loc main_arg7)) shapeCasts_S256_S1x256 := by
  show StableHlo.after hostOps0 (fun b => m (c, b)) (Proc.devRef .tc main_v1) = _
  after_results
  rfl

theorem bh_arr (c : Dev nD) :
    V m c main_v2 = shapeCast S1x256 (m ((c : Thread nD τ).loc main_arg9)) shapeCasts_S256_S1x256 := by
  show StableHlo.after hostOps0 (fun b => m (c, b)) (Proc.devRef .tc main_v2) = _
  after_results
  rfl

theorem bout_arr (c : Dev nD) :
    V m c main_v3 = shapeCast S1x1 (m ((c : Thread nD τ).loc main_arg11)) shapeCasts_S1_S1x1 := by
  show StableHlo.after hostOps0 (fun b => m (c, b)) (Proc.devRef .tc main_v3) = _
  after_results
  rfl

/-- Entry (0, b) of a vector of n entries reshaped to one row is entry b of the vector. -/
theorem bin_at (c : Dev nD) (a : Fin 1) (b : Fin 64) :
    V m c main_v0 (ix2 a b) = m ((c : Thread nD τ).loc main_arg5) (ix1 b) := by
  rw [bin_arr]
  exact shapeCast_apply _ _ (ix2 a b) (ix1 b) (by
    rw [Shape.rowMajor_val_one, Shape.rowMajor_val_two]
    show b.val = a.val * 64 + b.val
    have := a.isLt; omega)

theorem bi_at (c : Dev nD) (a : Fin 1) (b : Fin 256) :
    V m c main_v1 (ix2 a b) = m ((c : Thread nD τ).loc main_arg7) (ix1 b) := by
  rw [bi_arr]
  exact shapeCast_apply _ _ (ix2 a b) (ix1 b) (by
    rw [Shape.rowMajor_val_one, Shape.rowMajor_val_two]
    show b.val = a.val * 256 + b.val
    have := a.isLt; omega)

theorem bh_at (c : Dev nD) (a : Fin 1) (b : Fin 256) :
    V m c main_v2 (ix2 a b) = m ((c : Thread nD τ).loc main_arg9) (ix1 b) := by
  rw [bh_arr]
  exact shapeCast_apply _ _ (ix2 a b) (ix1 b) (by
    rw [Shape.rowMajor_val_one, Shape.rowMajor_val_two]
    show b.val = a.val * 256 + b.val
    have := a.isLt; omega)

theorem bout_at (c : Dev nD) (a : Fin 1) (b : Fin 1) :
    V m c main_v3 (ix2 a b) = m ((c : Thread nD τ).loc main_arg11) (ix1 b) := by
  rw [bout_arr]
  exact shapeCast_apply _ _ (ix2 a b) (ix1 b) (by
    rw [Shape.rowMajor_val_one, Shape.rowMajor_val_two]
    show b.val = a.val * 1 + b.val
    have := a.isLt; omega)

/-! ## A block's weights and rows are the arguments' -/

/-- The specification's weights at core c's argument arrays. -/
def argWeights (c : Dev nD) : Weights :=
  weightsOf (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- Row r of the batch at core c's argument arrays. -/
def argRow (c : Dev nD) (r : Fin 131072) : Row :=
  rowOf (m ((c : Thread nD τ).loc main_arg0)) (m ((c : Thread nD τ).loc main_arg1)) (m ((c : Thread nD τ).loc main_arg2))
    (m ((c : Thread nD τ).loc main_arg3)) r

theorem block_weights (c : Dev nD) (t : Fin cfg0.N) :
    blockWeights (iblk m c 4 t) (iblk m c 5 t) (iblk m c 6 t) (iblk m c 7 t) (iblk m c 8 t) (iblk m c 9 t) = argWeights m c := by
  have e₁ : (fun (a : Fin 192) (b : Fin 64) => iblk m c 4 t (ix2 (lowRow a) b))
      = fun a b => m ((c : Thread nD τ).loc main_arg4) (ix2 (lowRow a) b) :=
    funext fun a => funext fun b => (win_blk m c t (lowRow a) b).trans (congrFun (V_main_arg4 m c) _)
  have e₂ : (fun (a : Fin 32) (b : Fin 64) => iblk m c 4 t (ix2 (highRow a) b))
      = fun a b => m ((c : Thread nD τ).loc main_arg4) (ix2 (highRow a) b) :=
    funext fun a => funext fun b => (win_blk m c t (highRow a) b).trans (congrFun (V_main_arg4 m c) _)
  have e₃ : (fun (b : Fin 64) => iblk m c 5 t (ix2 0 b)) = fun b => m ((c : Thread nD τ).loc main_arg5) (ix1 b) :=
    funext fun b => (bin_blk m c t 0 b).trans (bin_at m c 0 b)
  have e₄ : (fun (a : Fin 64) (b : Fin 256) => iblk m c 6 t (ix2 a b)) = fun a b => m ((c : Thread nD τ).loc main_arg6) (ix2 a b) :=
    funext fun a => funext fun b => (wi_blk m c t a b).trans (congrFun (V_main_arg6 m c) _)
  have e₅ : (fun (b : Fin 256) => iblk m c 7 t (ix2 0 b)) = fun b => m ((c : Thread nD τ).loc main_arg7) (ix1 b) :=
    funext fun b => (bi_blk m c t 0 b).trans (bi_at m c 0 b)
  have e₆ : (fun (a : Fin 64) (b : Fin 256) => iblk m c 8 t (ix2 a b)) = fun a b => m ((c : Thread nD τ).loc main_arg8) (ix2 a b) :=
    funext fun a => funext fun b => (wh_blk m c t a b).trans (congrFun (V_main_arg8 m c) _)
  have e₇ : (fun (b : Fin 256) => iblk m c 9 t (ix2 0 b)) = fun b => m ((c : Thread nD τ).loc main_arg9) (ix1 b) :=
    funext fun b => (bh_blk m c t 0 b).trans (bh_at m c 0 b)
  unfold blockWeights argWeights weightsOf
  rw [e₁, e₂, e₃, e₄, e₅, e₆, e₇]

theorem block_row (c : Dev nD) (t : Fin cfg0.N) (p : Fin 2048) :
    loadedRow (iblk m c 0 t) (iblk m c 1 t) (iblk m c 2 t) (iblk m c 3 t) p = argRow m c (rowAt t p) := by
  have e₁ : (fun (k : Fin 192) => iblk m c 0 t (ix2 p k)) = fun k => m ((c : Thread nD τ).loc main_arg0) (ix2 (rowAt t p) k) :=
    funext fun k => (state_blk m c t p k).trans (congrFun (V_main_arg0 m c) _)
  have e₂ : (fun (k : Fin 32) => iblk m c 1 t (ix2 p k)) = fun k => m ((c : Thread nD τ).loc main_arg1) (ix2 (rowAt t p) k) :=
    funext fun k => (action_blk m c t p k).trans (congrFun (V_main_arg1 m c) _)
  have e₃ : (fun (k : Fin 64) => iblk m c 2 t (ix2 p k)) = fun k => m ((c : Thread nD τ).loc main_arg2) (ix2 (rowAt t p) k) :=
    funext fun k => (hidden_blk m c t p k).trans (congrFun (V_main_arg2 m c) _)
  have e₄ : (fun (k : Fin 64) => iblk m c 3 t (ix2 p k)) = fun k => m ((c : Thread nD τ).loc main_arg3) (ix2 (rowAt t p) k) :=
    funext fun k => (cell_blk m c t p k).trans (congrFun (V_main_arg3 m c) _)
  unfold loadedRow argRow rowOf
  rw [e₁, e₂, e₃, e₄]

theorem block_wout (c : Dev nD) (t : Fin cfg0.N) :
    (fun (k : Fin 64) => iblk m c 10 t (ix2 k 0)) = fun k => m ((c : Thread nD τ).loc main_arg10) (ix2 k 0) :=
  funext fun k => (wout_blk m c t k 0).trans (congrFun (V_main_arg10 m c) _)

theorem block_bout (c : Dev nD) (t : Fin cfg0.N) :
    iblk m c 11 t (ix2 0 0) = m ((c : Thread nD τ).loc main_arg11) (ix1 0) :=
  (bout_blk m c t 0 0).trans (bout_at m c 0 0)

/-! ## What each point leaves in the output buffers -/

theorem cell_point (c : Dev nD) (t : Fin cfg0.N) (p : Fin 2048) (j : Fin 64) :
    out0_14 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 p j)
      = cellNext (argWeights m c) (argRow m c (rowAt t p)) j := by
  refine (cell_out (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) p j).trans ?_
  rw [block_weights, block_row]

theorem hidden_point (c : Dev nD) (t : Fin cfg0.N) (p : Fin 2048) (j : Fin 64) :
    out0_13 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 p j)
      = hiddenNext (argWeights m c) (argRow m c (rowAt t p)) j := by
  refine (hidden_out (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) p j).trans ?_
  rw [block_weights, block_row]

theorem readout_point (c : Dev nD) (t : Fin cfg0.N) (p : Fin 2048) (z : Fin 1) :
    out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 p z)
      = readout (argWeights m c) (argRow m c (rowAt t p)) (fun k => m ((c : Thread nD τ).loc main_arg10) (ix2 k 0))
          (m ((c : Thread nD τ).loc main_arg11) (ix1 0)) := by
  refine (readout_out (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) p z).trans ?_
  rw [block_weights, block_row, block_wout, block_bout]

/-! ## The three arrays after the run -/

/-- The specification's new cell states at core c's argument arrays. -/
def cellFinal (c : Dev nD) : FVec Ideal S131072x64 .f32 :=
  cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The specification's new hidden states at core c's argument arrays. -/
def hiddenFinal (c : Dev nD) : FVec Ideal S131072x64 .f32 :=
  hiddenArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The specification's read-outs at core c's argument arrays. -/
def readoutFinal (c : Dev nD) : FVec Ideal S131072x1 .f32 :=
  readoutArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- Entry (p, j) of point t's block of the cell output is entry (2048·t + p, j) of its array. -/
theorem cell_emb (t : Fin cfg0.N) (p : Fin 2048) (j : Fin 64) :
    ((cfg0.win 14).blk t).view.emb (ix2 p j) = ix2 (rowAt t p) j := by
  funext a
  apply Fin.ext
  obtain ⟨-, -, -, -, -, -, -, -, -, -, -, -, e0, e1⟩ := idx_facts t
  match a with
  | ⟨0, _⟩ => show win0_14.index t (0 : Fin 2) * 2048 + 1 * p.val = t.val * 2048 + p.val; omega
  | ⟨1, _⟩ => show win0_14.index t (1 : Fin 2) * 64 + 1 * j.val = j.val; omega

theorem cell_point_emb (c : Dev nD) (t : Fin cfg0.N) (y : S2048x64.Idx) :
    out0_14 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) y
      = cellFinal m c (((cfg0.win 14).blk t).view.emb y) := by
  obtain ⟨p, j, rfl⟩ : ∃ (p : Fin 2048) (j : Fin 64), y = ix2 p j := ⟨y 0, y 1, eq_ix2 y⟩
  rw [cell_emb]
  exact cell_point m c t p j

/-- What point t writes back to the cell output is block t of the specification's array. -/
theorem cell_flushed (c : Dev nD) (t : Fin cfg0.N) :
    (dats m 0 c).flushed 14 t = ((cfg0.win 14).blk t).view.read (Elt Ideal) (cellFinal m c) := by
  show (cfg0.win 14).cut (grid0.coords t) ((dats m 0 c).after 14 t) = _
  rw [after0_14]
  funext y
  exact cell_point_emb m c t y

/-- An index of the cell array lies in point t's block iff each coordinate lies in the block's range on its axis. -/
theorem cell_mem_blk (t : Fin cfg0.N) (i : S131072x64.Idx) :
    i ∈ ((cfg0.win 14).blk t).view.set ↔ ∀ a : Fin 2, win0_14.index t a * S2048x64.size a ≤ (i a).val ∧ (i a).val < win0_14.index t a * S2048x64.size a + S2048x64.size a := by
  show i ∈ ((View.whole main_v4_2).slice (win0_14.rect t)).set ↔ _
  rw [View.set_slice_whole, Rect.mem_set_unit]
  exact Iff.rfl

/-- Row r of the cell array lies in the block of point r / 2048. -/
theorem cell_cover (i : S131072x64.Idx) :
    ∃ t : Fin cfg0.N, (cfg0.win 14).flush t = true ∧ i ∈ ((cfg0.win 14).blk t).view.set := by
  have hi0 : (i 0).val < 131072 := (i 0).isLt
  have hi1 : (i 1).val < 64 := (i 1).isLt
  have ht : (i 0).val / 2048 < cfg0.N := lt_of_lt_of_eq (by omega : (i 0).val / 2048 < 64) N_0.symm
  obtain ⟨t, hv⟩ : ∃ t : Fin cfg0.N, t.val = (i 0).val / 2048 := ⟨⟨(i 0).val / 2048, ht⟩, rfl⟩
  refine ⟨t, flush0_14 t, ?_⟩
  rw [cell_mem_blk]
  obtain ⟨-, -, -, -, -, -, -, -, -, -, -, -, e0, e1⟩ := idx_facts t
  intro a
  match a with
  | ⟨0, _⟩ => show win0_14.index t (0 : Fin 2) * 2048 ≤ (i 0).val ∧ (i 0).val < win0_14.index t (0 : Fin 2) * 2048 + 2048; omega
  | ⟨1, _⟩ => show win0_14.index t (1 : Fin 2) * 64 ≤ (i 1).val ∧ (i 1).val < win0_14.index t (1 : Fin 2) * 64 + 64; omega

/-- The cell array after the run is the specification's. -/
theorem cell_final (c : Dev nD) : (dats m 0 c).arrAt 14 cfg0.N = cellFinal m c :=
  (dats m 0 c).arrAt_eq_of_cover 14 (cellFinal m c) (fun t _ => cell_flushed m c t) cell_cover

/-- Entry (p, j) of point t's block of the hidden output is entry (2048·t + p, j) of its array. -/
theorem hidden_emb (t : Fin cfg0.N) (p : Fin 2048) (j : Fin 64) :
    ((cfg0.win 13).blk t).view.emb (ix2 p j) = ix2 (rowAt t p) j := by
  funext a
  apply Fin.ext
  obtain ⟨-, -, -, -, -, -, -, -, -, -, e0, e1, -⟩ := idx_facts t
  match a with
  | ⟨0, _⟩ => show win0_13.index t (0 : Fin 2) * 2048 + 1 * p.val = t.val * 2048 + p.val; omega
  | ⟨1, _⟩ => show win0_13.index t (1 : Fin 2) * 64 + 1 * j.val = j.val; omega

theorem hidden_point_emb (c : Dev nD) (t : Fin cfg0.N) (y : S2048x64.Idx) :
    out0_13 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) y
      = hiddenFinal m c (((cfg0.win 13).blk t).view.emb y) := by
  obtain ⟨p, j, rfl⟩ : ∃ (p : Fin 2048) (j : Fin 64), y = ix2 p j := ⟨y 0, y 1, eq_ix2 y⟩
  rw [hidden_emb]
  exact hidden_point m c t p j

/-- What point t writes back to the hidden output is block t of the specification's array. -/
theorem hidden_flushed (c : Dev nD) (t : Fin cfg0.N) :
    (dats m 0 c).flushed 13 t = ((cfg0.win 13).blk t).view.read (Elt Ideal) (hiddenFinal m c) := by
  show (cfg0.win 13).cut (grid0.coords t) ((dats m 0 c).after 13 t) = _
  rw [after0_13]
  funext y
  exact hidden_point_emb m c t y

/-- An index of the hidden array lies in point t's block iff each coordinate lies in the block's range on its axis. -/
theorem hidden_mem_blk (t : Fin cfg0.N) (i : S131072x64.Idx) :
    i ∈ ((cfg0.win 13).blk t).view.set ↔ ∀ a : Fin 2, win0_13.index t a * S2048x64.size a ≤ (i a).val ∧ (i a).val < win0_13.index t a * S2048x64.size a + S2048x64.size a := by
  show i ∈ ((View.whole main_v4_1).slice (win0_13.rect t)).set ↔ _
  rw [View.set_slice_whole, Rect.mem_set_unit]
  exact Iff.rfl

/-- Row r of the hidden array lies in the block of point r / 2048. -/
theorem hidden_cover (i : S131072x64.Idx) :
    ∃ t : Fin cfg0.N, (cfg0.win 13).flush t = true ∧ i ∈ ((cfg0.win 13).blk t).view.set := by
  have hi0 : (i 0).val < 131072 := (i 0).isLt
  have hi1 : (i 1).val < 64 := (i 1).isLt
  have ht : (i 0).val / 2048 < cfg0.N := lt_of_lt_of_eq (by omega : (i 0).val / 2048 < 64) N_0.symm
  obtain ⟨t, hv⟩ : ∃ t : Fin cfg0.N, t.val = (i 0).val / 2048 := ⟨⟨(i 0).val / 2048, ht⟩, rfl⟩
  refine ⟨t, flush0_13 t, ?_⟩
  rw [hidden_mem_blk]
  obtain ⟨-, -, -, -, -, -, -, -, -, -, e0, e1, -⟩ := idx_facts t
  intro a
  match a with
  | ⟨0, _⟩ => show win0_13.index t (0 : Fin 2) * 2048 ≤ (i 0).val ∧ (i 0).val < win0_13.index t (0 : Fin 2) * 2048 + 2048; omega
  | ⟨1, _⟩ => show win0_13.index t (1 : Fin 2) * 64 ≤ (i 1).val ∧ (i 1).val < win0_13.index t (1 : Fin 2) * 64 + 64; omega

/-- The hidden array after the run is the specification's. -/
theorem hidden_final (c : Dev nD) : (dats m 0 c).arrAt 13 cfg0.N = hiddenFinal m c :=
  (dats m 0 c).arrAt_eq_of_cover 13 (hiddenFinal m c) (fun t _ => hidden_flushed m c t) hidden_cover

/-- Entry (p, j) of point t's block of the readout output is entry (2048·t + p, j) of its array. -/
theorem readout_emb (t : Fin cfg0.N) (p : Fin 2048) (j : Fin 1) :
    ((cfg0.win 12).blk t).view.emb (ix2 p j) = ix2 (rowAt t p) j := by
  funext a
  apply Fin.ext
  obtain ⟨-, -, -, -, -, -, -, -, e0, e1, -⟩ := idx_facts t
  match a with
  | ⟨0, _⟩ => show win0_12.index t (0 : Fin 2) * 2048 + 1 * p.val = t.val * 2048 + p.val; omega
  | ⟨1, _⟩ => show win0_12.index t (1 : Fin 2) * 1 + 1 * j.val = j.val; omega

theorem readout_point_emb (c : Dev nD) (t : Fin cfg0.N) (y : S2048x1.Idx) :
    out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) y
      = readoutFinal m c (((cfg0.win 12).blk t).view.emb y) := by
  obtain ⟨p, j, rfl⟩ : ∃ (p : Fin 2048) (j : Fin 1), y = ix2 p j := ⟨y 0, y 1, eq_ix2 y⟩
  rw [readout_emb]
  exact readout_point m c t p j

/-- What point t writes back to the readout output is block t of the specification's array. -/
theorem readout_flushed (c : Dev nD) (t : Fin cfg0.N) :
    (dats m 0 c).flushed 12 t = ((cfg0.win 12).blk t).view.read (Elt Ideal) (readoutFinal m c) := by
  show (cfg0.win 12).cut (grid0.coords t) ((dats m 0 c).after 12 t) = _
  rw [after0_12]
  funext y
  exact readout_point_emb m c t y

/-- An index of the readout array lies in point t's block iff each coordinate lies in the block's range on its axis. -/
theorem readout_mem_blk (t : Fin cfg0.N) (i : S131072x1.Idx) :
    i ∈ ((cfg0.win 12).blk t).view.set ↔ ∀ a : Fin 2, win0_12.index t a * S2048x1.size a ≤ (i a).val ∧ (i a).val < win0_12.index t a * S2048x1.size a + S2048x1.size a := by
  show i ∈ ((View.whole main_v4_0).slice (win0_12.rect t)).set ↔ _
  rw [View.set_slice_whole, Rect.mem_set_unit]
  exact Iff.rfl

/-- Row r of the readout array lies in the block of point r / 2048. -/
theorem readout_cover (i : S131072x1.Idx) :
    ∃ t : Fin cfg0.N, (cfg0.win 12).flush t = true ∧ i ∈ ((cfg0.win 12).blk t).view.set := by
  have hi0 : (i 0).val < 131072 := (i 0).isLt
  have hi1 : (i 1).val < 1 := (i 1).isLt
  have ht : (i 0).val / 2048 < cfg0.N := lt_of_lt_of_eq (by omega : (i 0).val / 2048 < 64) N_0.symm
  obtain ⟨t, hv⟩ : ∃ t : Fin cfg0.N, t.val = (i 0).val / 2048 := ⟨⟨(i 0).val / 2048, ht⟩, rfl⟩
  refine ⟨t, flush0_12 t, ?_⟩
  rw [readout_mem_blk]
  obtain ⟨-, -, -, -, -, -, -, -, e0, e1, -⟩ := idx_facts t
  intro a
  match a with
  | ⟨0, _⟩ => show win0_12.index t (0 : Fin 2) * 2048 ≤ (i 0).val ∧ (i 0).val < win0_12.index t (0 : Fin 2) * 2048 + 2048; omega
  | ⟨1, _⟩ => show win0_12.index t (1 : Fin 2) * 1 ≤ (i 1).val ∧ (i 1).val < win0_12.index t (1 : Fin 2) * 1 + 1; omega

/-- The readout array after the run is the specification's. -/
theorem readout_final (c : Dev nD) : (dats m 0 c).arrAt 12 cfg0.N = readoutFinal m c :=
  (dats m 0 c).arrAt_eq_of_cover 12 (readoutFinal m c) (fun t _ => readout_flushed m c t) readout_cover

end Cert.KernelIdeal.KValue

end
-- ==== Proof.KernelRun.lean ====
/-
  The kernel's run with every result named.

  After the region the program reads the new hidden states and the new cell states flat, as 2 × 1 × 4194304, and returns
  each of the two slabs of each as a 1 × 4194304 array. The region leaves the specification's arrays in the two output
  buffers, so each returned array is that half of the specification's array; the read-out column is returned as the region
  leaves it. The arguments are not written.
-/
import proofs.«173676_j39737037422777_1_alg».proof.Proof.KernelArrays

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.LstmStep

variable (m : (ℓ : Loc nD τ sig) → Buf (Elt Ideal) ℓ) (ρ : Dev nD → PrngReg)

/-! ## The four halves the program returns -/

theorem tail_hidden0 (c : Dev nD) :
    Pipeline.afterTail₀ cfgs (dats m) 0 (V0 m) [hostOps1] c main_v8
      = half 0 shapeCasts_S131072x64_S2x1x4194304 slices_S2x1x4194304_S1x1x4194304_0_0_0 shapeCasts_S1x1x4194304_S1x4194304
          (hiddenFinal m c) := by
  have e : Pipeline.withArrays (cfgs 0).spec c (V0 m c) (fun w => (dats m 0 c).arrAt w (cfgs 0).N) (Proc.devRef .tc main_v4_1)
      = hiddenFinal m c :=
    (Pipeline.withArrays_arr spec0 launch0.win.arr_inj c _ _ 13).trans (hidden_final m c)
  unfold Pipeline.afterTail₀
  show StableHlo.after hostOps1 _ (Proc.devRef .tc main_v8) = _
  after_results
  rw [e]
  rfl

theorem tail_hidden1 (c : Dev nD) :
    Pipeline.afterTail₀ cfgs (dats m) 0 (V0 m) [hostOps1] c main_v10
      = half 1 shapeCasts_S131072x64_S2x1x4194304 slices_S2x1x4194304_S1x1x4194304_1_0_0 shapeCasts_S1x1x4194304_S1x4194304
          (hiddenFinal m c) := by
  have e : Pipeline.withArrays (cfgs 0).spec c (V0 m c) (fun w => (dats m 0 c).arrAt w (cfgs 0).N) (Proc.devRef .tc main_v4_1)
      = hiddenFinal m c :=
    (Pipeline.withArrays_arr spec0 launch0.win.arr_inj c _ _ 13).trans (hidden_final m c)
  unfold Pipeline.afterTail₀
  show StableHlo.after hostOps1 _ (Proc.devRef .tc main_v10) = _
  after_results
  rw [e]
  rfl

theorem tail_cell0 (c : Dev nD) :
    Pipeline.afterTail₀ cfgs (dats m) 0 (V0 m) [hostOps1] c main_v12
      = half 0 shapeCasts_S131072x64_S2x1x4194304 slices_S2x1x4194304_S1x1x4194304_0_0_0 shapeCasts_S1x1x4194304_S1x4194304
          (cellFinal m c) := by
  have e : Pipeline.withArrays (cfgs 0).spec c (V0 m c) (fun w => (dats m 0 c).arrAt w (cfgs 0).N) (Proc.devRef .tc main_v4_2)
      = cellFinal m c :=
    (Pipeline.withArrays_arr spec0 launch0.win.arr_inj c _ _ 14).trans (cell_final m c)
  unfold Pipeline.afterTail₀
  show StableHlo.after hostOps1 _ (Proc.devRef .tc main_v12) = _
  after_results
  rw [e]
  rfl

theorem tail_cell1 (c : Dev nD) :
    Pipeline.afterTail₀ cfgs (dats m) 0 (V0 m) [hostOps1] c main_v14
      = half 1 shapeCasts_S131072x64_S2x1x4194304 slices_S2x1x4194304_S1x1x4194304_1_0_0 shapeCasts_S1x1x4194304_S1x4194304
          (cellFinal m c) := by
  have e : Pipeline.withArrays (cfgs 0).spec c (V0 m c) (fun w => (dats m 0 c).arrAt w (cfgs 0).N) (Proc.devRef .tc main_v4_2)
      = cellFinal m c :=
    (Pipeline.withArrays_arr spec0 launch0.win.arr_inj c _ _ 14).trans (cell_final m c)
  unfold Pipeline.afterTail₀
  show StableHlo.after hostOps1 _ (Proc.devRef .tc main_v14) = _
  after_results
  rw [e]
  rfl

/-! ## The run -/

/-- Every weakly fair execution of the kernel's program terminates with the read-out column at the specification's
    read-outs, the four returned halves at the halves of the specification's hidden and cell states, and the arguments
    as launched. -/
theorem run : θ_run defs (onTc (τ := τ) (main (F := Ideal))) ⟨m, fun _ => 0, ρ⟩ fun r => ∀ c : Dev nD,
      r.2.mem ((c : Thread nD τ).loc main_v4_0) = readoutFinal m c
      ∧ r.2.mem ((c : Thread nD τ).loc main_v8)
          = half 0 shapeCasts_S131072x64_S2x1x4194304 slices_S2x1x4194304_S1x1x4194304_0_0_0 shapeCasts_S1x1x4194304_S1x4194304 (hiddenFinal m c)
      ∧ r.2.mem ((c : Thread nD τ).loc main_v10)
          = half 1 shapeCasts_S131072x64_S2x1x4194304 slices_S2x1x4194304_S1x1x4194304_1_0_0 shapeCasts_S1x1x4194304_S1x4194304 (hiddenFinal m c)
      ∧ r.2.mem ((c : Thread nD τ).loc main_v12)
          = half 0 shapeCasts_S131072x64_S2x1x4194304 slices_S2x1x4194304_S1x1x4194304_0_0_0 shapeCasts_S1x1x4194304_S1x4194304 (cellFinal m c)
      ∧ r.2.mem ((c : Thread nD τ).loc main_v14)
          = half 1 shapeCasts_S131072x64_S2x1x4194304 slices_S2x1x4194304_S1x1x4194304_1_0_0 shapeCasts_S1x1x4194304_S1x4194304 (cellFinal m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 12).trans (readout_final m c),
      ((h c).2 main_v8 (Pipeline.mem_restRefs_of main_v8 (by decide) (by decide))).trans (tail_hidden0 m c),
      ((h c).2 main_v10 (Pipeline.mem_restRefs_of main_v10 (by decide) (by decide))).trans (tail_hidden1 m c),
      ((h c).2 main_v12 (Pipeline.mem_restRefs_of main_v12 (by decide) (by decide))).trans (tail_cell0 m c),
      ((h c).2 main_v14 (Pipeline.mem_restRefs_of main_v14 (by decide) (by decide))).trans (tail_cell1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c))⟩)
    (run_main m ρ)

end Cert.KernelIdeal.KValue

end
-- ==== Proof.lean ====
/-
  One step of an LSTM cell over a batch of 131072 rows: a kernel that works through the batch in 64 blocks of 2048 rows
  against a reference that works on the whole batch at once.

  Both compute, for every row, x = max(W_in-projection of (observation, action) + b_in, 0), the 256 gate
  pre-activations g = x·W_i + h·W_h + b_i + b_h, the new cell state c' = σ(g_f)·c + σ(g_i)·tanh(g_c), the new hidden
  state h' = σ(g_o)·tanh(c') and the read-out tanh(h'·W_out + b_out), and both return the read-out column and the two
  halves of h' and of c' read flat. On the extended reals the two differ in three spellings only, none of which changes
  a value:

  * the kernel multiplies the observation by rows 0 … 191 of W_in and the action by rows 192 … 223 and adds, where the
    reference multiplies the joined row by all of W_in: one sum of 224 products split after its first 192 terms;
  * the kernel's logistic function is the reference's 1 / (1 + e^{-t});
  * the kernel narrows its matrix factors to a 16-bit float format first, which is the identity on exact values.

  No law used needs an entry to be finite, so the precondition is never opened. The kernel's side is read off its
  generated frame run: what each grid point leaves in the three output buffers is the step on the rows of its block, the
  64 blocks tile each output array, and the operations after the region take the halves. The reference's side is its
  generated run read one operation at a time. The two word-level and exact frames of the kernel are the generated ones,
  and the reference's frame is its run with the results dropped. The kernel's exact program is its printed program read
  at exact values with nothing rewritten, so there is nothing to preserve.
-/
import proofs.«173676_j39737037422777_1_alg».proof.Defs
import proofs.«173676_j39737037422777_1_alg».proof.Proof.Gen.Kernel
import proofs.«173676_j39737037422777_1_alg».proof.Proof.Gen.Kernel.Skeleton
import proofs.«173676_j39737037422777_1_alg».proof.Proof.Gen.Kernel.Launch
import proofs.«173676_j39737037422777_1_alg».proof.Proof.Gen.Kernel.Points
import proofs.«173676_j39737037422777_1_alg».proof.Proof.Gen.Kernel.Frame
import proofs.«173676_j39737037422777_1_alg».proof.Proof.Gen.KernelIdeal
import proofs.«173676_j39737037422777_1_alg».proof.Proof.Gen.KernelIdeal.Skeleton
import proofs.«173676_j39737037422777_1_alg».proof.Proof.Gen.KernelIdeal.Launch
import proofs.«173676_j39737037422777_1_alg».proof.Proof.Gen.KernelIdeal.Points
import proofs.«173676_j39737037422777_1_alg».proof.Proof.Gen.KernelIdeal.Frame
import proofs.«173676_j39737037422777_1_alg».proof.Proof.Gen.ReferenceIdeal
import proofs.«173676_j39737037422777_1_alg».proof.Proof.Gen.ReferenceIdeal.Run
import proofs.«173676_j39737037422777_1_alg».proof.Proof.Gen.ReferenceIdeal.Read
import proofs.«173676_j39737037422777_1_alg».proof.Proof.Gen.Pre_finite_inputs
import proofs.«173676_j39737037422777_1_alg».proof.Proof.RefValue
import proofs.«173676_j39737037422777_1_alg».proof.Proof.KernelRun
import Idealize.ShloMosaic.Adequacy
import Idealize.ShloMosaic.Init

noncomputable section

namespace Cert.Proof

open Idealize.ShloMosaic Idealize.SL.Sem

/-- The kernel's program at the word level runs and leaves its arguments alone. -/
theorem frame_kernel : Cert.frame_Kernel := fun m ρ _ => Cert.Kernel.Gen.frame m ρ

/-- So does the kernel's program at exact values. -/
theorem frame_kernel_exact : Cert.frame_KernelIdeal := fun m ρ _ => Cert.KernelIdeal.Gen.frame m ρ

/-- The reference runs and leaves its arguments alone: its run, the five results dropped. -/
theorem frame_reference : Cert.frame_ReferenceIdeal := fun m ρ _ =>
  (θ_run Cert.ReferenceIdeal.defs _ _).mono (fun _ h c => (h c).2.2.2.2.2) (Cert.ReferenceIdeal.Value.run (F := Ideal) m ρ)

/-- Nothing was rewritten when the kernel's program was read at exact values. -/
theorem preserves : Cert.preserves_Kernel_KernelIdeal := trivial

/-- From arguments that agree, the kernel's five results are the specification's read-outs and the halves of its hidden
    and cell states at the kernel's arguments, and the reference's are the same functions of its own arguments. -/
theorem algebraic : Cert.algebraic_KernelIdeal_ReferenceIdeal := by
  intro m ρ m' ρ' _ hagree
  refine ⟨_, _, _, _, _, Cert.KernelIdeal.KValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  obtain ⟨h0, h1, h2, h3, h4, hk⟩ := h c
  refine ⟨h0.trans ?_, h1.trans ?_, h2.trans ?_, h3.trans ?_, h4.trans ?_, hk⟩
  · rw [Cert.ReferenceIdeal.Read.val_main_v47_eq, Cert.ReferenceIdeal.RefValue.readout_eq, a0, a1, a2, a3, a4, a5, a6, a7, a8, a9, a10, a11]
    rfl
  · rw [Cert.ReferenceIdeal.Read.val_main_v51_eq, Cert.ReferenceIdeal.RefValue.hidden_half0, a0, a1, a2, a3, a4, a5, a6, a7, a8, a9]
    rfl
  · rw [Cert.ReferenceIdeal.Read.val_main_v53_eq, Cert.ReferenceIdeal.RefValue.hidden_half1, a0, a1, a2, a3, a4, a5, a6, a7, a8, a9]
    rfl
  · rw [Cert.ReferenceIdeal.Read.val_main_v55_eq, Cert.ReferenceIdeal.RefValue.cell_half0, a0, a1, a2, a3, a4, a5, a6, a7, a8, a9]
    rfl
  · rw [Cert.ReferenceIdeal.Read.val_main_v57_eq, Cert.ReferenceIdeal.RefValue.cell_half1, a0, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_kernel, frame_kernel_exact, frame_reference, preserves, algebraic⟩

end Cert.Proof

end
